-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x640000 : Shape := ⟨2, ![2, 640000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S2x640000 : S_.BroadcastsInDim S2x640000 (![] : Fin 0 → Fin S2x640000.rank)
  reducesTo_S2x640000_S_d0_1 : S2x640000.ReducesTo [0, 1] S_

variable [Facts]

def fn_part3 {F : FTy → Type} [FloatOps F] (main_arg2 : IVec S2x640000 32) (main_v48 : IVec S_ 1) (main_v50 : IVec S2x640000 1) : IVec S_ 1 :=
  let main_c_19 : IVec S_ 32 := constantI S_ 32 50000#32
  let main_v51 : IVec S2x640000 32 := broadcastInDim S2x640000 ![] bcast_S_S2x640000 main_c_19
  let main_v52 : IVec S2x640000 1 := cmpi .slt main_arg2 main_v51
  let main_v53 : IVec S2x640000 1 := andi main_v50 main_v52
  let main_c_20 : IVec S_ 1 := constantI S_ 1 1#1
  let main_v54 : IVec S_ 1 := (fun x v => Host.reduce IntOp.andi x v reducesTo_S2x640000_S_d0_1 h_S_) main_v53 main_c_20
  let main_v55 : IVec S_ 1 := andi main_v48 main_v54
  main_v55

def fn_part2 {F : FTy → Type} [FloatOps F] (main_arg2 : IVec S2x640000 32) (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_c_18 : IVec S_ 32 := constantI S_ 32 0#32
  let main_v49 : IVec S2x640000 32 := broadcastInDim S2x640000 ![] bcast_S_S2x640000 main_c_18
  let main_v50 : IVec S2x640000 1 := cmpi .sge main_arg2 main_v49
  fn_part3 (F := F) main_arg2 main_v48 main_v50

def fn_part1 {F : FTy → Type} [FloatOps F] (main_arg2 : IVec S2x640000 32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg2 main_arg8 main_arg9 main_arg10 main_v33

def fn {F : FTy → Type} [FloatOps F] (main_arg0 : FVec F S50000x128 .f32) (main_arg1 : FVec F S50000x3 .f32) (main_arg2 : IVec S2x640000 32) (main_arg3 : FVec F S257x128 .f32) (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S257x128 .f32 := Host.absf main_arg3
  let main_cst_2 : FVec F S_ .f32 := constant S_ .f32 0x7F800000#32
  let main_v10 : FVec F S257x128 .f32 := broadcastInDim S257x128 ![] bcast_S_S257x128 main_cst_2
  let main_v11 : IVec S257x128 1 := cmpf .olt main_v9 main_v10
  let main_c_3 : IVec S_ 1 := constantI S_ 1 1#1
  let main_v12 : IVec S_ 1 := (fun x v => Host.reduce IntOp.andi x v reducesTo_S257x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_v13 main_v16
-- ==== Kernel.lean ====
abbrev S50000x128 : Shape := ⟨2, ![50000, 128]⟩
abbrev S50000x3 : Shape := ⟨2, ![50000, 3]⟩
abbrev S2x640000 : Shape := ⟨2, ![2, 640000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S640000x128 : Shape := ⟨2, ![640000, 128]⟩
abbrev S640000x3 : Shape := ⟨2, ![640000, 3]⟩
abbrev S1x128 : Shape := ⟨2, ![1, 128]⟩
abbrev S4000x128 : Shape := ⟨2, ![4000, 128]⟩
abbrev S4000x1 : Shape := ⟨2, ![4000, 1]⟩
abbrev S5000x128 : Shape := ⟨2, ![5000, 128]⟩

abbrev nBuf : Space → Nat
  | .hbm => 128
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x640000, .i32⟩
  | .hbm, ⟨3, _⟩ => ⟨S257x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S1, .i32⟩
  | .hbm, ⟨24, _⟩ => ⟨S_, .i32⟩
  | .hbm, ⟨25, _⟩ => ⟨S640000x1, .i32⟩
  | .hbm, ⟨26, _⟩ => ⟨S640000x1, .i1⟩
  | .hbm, ⟨27, _⟩ => ⟨S1x1, .i32⟩
  | .hbm, ⟨28, _⟩ => ⟨S640000x1, .i32⟩
  | .hbm, ⟨29, _⟩ => ⟨S640000x1, .i1⟩
  | .hbm, ⟨30, _⟩ => ⟨S640000x1, .i1⟩
  | .hbm, ⟨31, _⟩ => ⟨S_, .i1⟩
  | .hbm, ⟨32, _⟩ => ⟨S640000, .i1⟩
  | .hbm, ⟨33, _⟩ => ⟨S640000x128, .f32⟩
  | .hbm, ⟨34, _⟩ => ⟨S640000x128, .i1⟩
  | .hbm, ⟨35, _⟩ => ⟨S_, .f32⟩
  | .hbm, ⟨36, _⟩ => ⟨S640000x128, .f32⟩
  | .hbm, ⟨37, _⟩ => ⟨S640000x128, .f32⟩
  | .hbm, ⟨38, _⟩ => ⟨S_, .i32⟩
  | .hbm, ⟨39, _⟩ => ⟨S640000, .i32⟩
  | .hbm, ⟨40, _⟩ => ⟨S640000, .i1⟩
  | .hbm, ⟨41, _⟩ => ⟨S_, .i32⟩
  | .hbm, ⟨42, _⟩ => ⟨S640000, .i32⟩
  | .hbm, ⟨43, _⟩ => ⟨S640000, .i32⟩
  | .hbm, ⟨44, _⟩ => ⟨S640000, .i32⟩
  | .hbm, ⟨45, _⟩ => ⟨S640000x1, .i32⟩
  | .hbm, ⟨46, _⟩ => ⟨S1, .i32⟩
  | .hbm, ⟨47, _⟩ => ⟨S_, .i32⟩
  | .hbm, ⟨48, _⟩ => ⟨S640000x1, .i32⟩
  | .hbm, ⟨49, _⟩ => ⟨S640000x1, .i1⟩
  | .hbm, ⟨50, _⟩ => ⟨S1x1, .i32⟩
  | .hbm, ⟨51, _⟩ => ⟨S640000x1, .i32⟩
  | .hbm, ⟨52, _⟩ => ⟨S640000x1, .i1⟩
  | .hbm, ⟨53, _⟩ => ⟨S640000x1, .i1⟩
  | .hbm, ⟨54, _⟩ => ⟨S_, .i1⟩
  | .hbm, ⟨55, _⟩ => ⟨S640000, .i1⟩
  | .hbm, ⟨56, _⟩ => ⟨S640000x128, .f32⟩
  | .hbm, ⟨57, _⟩ => ⟨S640000x128, .i1⟩
  | .hbm, ⟨58, _⟩ => ⟨S_, .f32⟩
  | .hbm, ⟨59, _⟩ => ⟨S640000x128, .f32⟩
  | .hbm, ⟨60, _⟩ => ⟨S640000x128, .f32⟩
  | .hbm, ⟨61, _⟩ => ⟨S_, .i32⟩
  | .hbm, ⟨62, _⟩ => ⟨S640000, .i32⟩
  | .hbm, ⟨63, _⟩ => ⟨S640000, .i1⟩
  | .hbm, ⟨64, _⟩ => ⟨S_, .i32⟩
  | .hbm, ⟨65, _⟩ => ⟨S640000, .i32⟩
  | .hbm, ⟨66, _⟩ => ⟨S640000, .i32⟩
  | .hbm, ⟨67, _⟩ => ⟨S640000, .i32⟩
  | .hbm, ⟨68, _⟩ => ⟨S640000x1, .i32⟩
  | .hbm, ⟨69, _⟩ => ⟨S1, .i32⟩
  | .hbm, ⟨70, _⟩ => ⟨S_, .i32⟩
  | .hbm, ⟨71, _⟩ => ⟨S640000x1, .i32⟩
  | .hbm, ⟨72, _⟩ => ⟨S640000x1, .i1⟩
  | .hbm, ⟨73, _⟩ => ⟨S1x1, .i32⟩
  | .hbm, ⟨74, _⟩ => ⟨S640000x1, .i32⟩
  | .hbm, ⟨75, _⟩ => ⟨S640000x1, .i1⟩
  | .hbm, ⟨76, _⟩ => ⟨S640000x1, .i1⟩
  | .hbm, ⟨77, _⟩ => ⟨S_, .i1⟩
  | .hbm, ⟨78, _⟩ => ⟨S640000, .i1⟩
  | .hbm, ⟨79, _⟩ => ⟨S640000x3, .f32⟩
  | .hbm, ⟨80, _⟩ => ⟨S640000x3, .i1⟩
  | .hbm, ⟨81, _⟩ => ⟨S_, .f32⟩
  | .hbm, ⟨82, _⟩ => ⟨S640000x3, .f32⟩
  | .hbm, ⟨83, _⟩ => ⟨S640000x3, .f32⟩
  | .hbm, ⟨84, _⟩ => ⟨S_, .i32⟩
  | .hbm, ⟨85, _⟩ => ⟨S640000, .i32⟩
  | .hbm, ⟨86, _⟩ => ⟨S640000, .i1⟩
  | .hbm, ⟨87, _⟩ => ⟨S_, .i32⟩
  | .hbm, ⟨88, _⟩ => ⟨S640000, .i32⟩
  | .hbm, ⟨89, _⟩ => ⟨S640000, .i32⟩
  | .hbm, ⟨90, _⟩ => ⟨S640000, .i32⟩
  | .hbm, ⟨91, _⟩ => ⟨S640000x1, .i32⟩
  | .hbm, ⟨92, _⟩ => ⟨S1, .i32⟩
  | .hbm, ⟨93, _⟩ => ⟨S_, .i32⟩
  | .hbm, ⟨94, _⟩ => ⟨S640000x1, .i32⟩
  | .hbm, ⟨95, _⟩ => ⟨S640000x1, .i1⟩
  | .hbm, ⟨96, _⟩ => ⟨S1x1, .i32⟩
  | .hbm, ⟨97, _⟩ => ⟨S640000x1, .i32⟩
  | .hbm, ⟨98, _⟩ => ⟨S640000x1, .i1⟩
  | .hbm, ⟨99, _⟩ => ⟨S640000x1, .i1⟩
  | .hbm, ⟨100, _⟩ => ⟨S_, .i1⟩
  | .hbm, ⟨101, _⟩ => ⟨S640000, .i1⟩
  | .hbm, ⟨102, _⟩ => ⟨S640000x3, .f32⟩
  | .hbm, ⟨103, _⟩ => ⟨S640000x3, .i1⟩
  | .hbm, ⟨104, _⟩ => ⟨S_, .f32⟩
  | .hbm, ⟨105, _⟩ => ⟨S640000x3, .f32⟩
  | .hbm, ⟨106, _⟩ => ⟨S640000x3, .f32⟩
  | .hbm, ⟨107, _⟩ => ⟨S640000x3, .f32⟩
  | .hbm, ⟨108, _⟩ => ⟨S640000x3, .f32⟩
  | .hbm, ⟨109, _⟩ => ⟨S_, .f32⟩
  | .hbm, ⟨110, _⟩ => ⟨S640000, .f32⟩
  | .hbm, ⟨111, _⟩ => ⟨S640000, .f32⟩
  | .hbm, ⟨112, _⟩ => ⟨S640000x1, .f32⟩
  | .hbm, ⟨113, _⟩ => ⟨S128x128, .f32⟩
  | .hbm, ⟨114, _⟩ => ⟨S128x128, .f32⟩
  | .hbm, ⟨115, _⟩ => ⟨S1x128, .f32⟩
  | .hbm, ⟨116, _⟩ => ⟨S1x128, .f32⟩
  | .hbm, ⟨117, _⟩ => ⟨S1x128, .f32⟩
  | .hbm, ⟨118, _⟩ => ⟨S640000x128, .f32⟩
  | .hbm, ⟨119, _⟩ => ⟨S_, .f32⟩
  | .hbm, ⟨120, _⟩ => ⟨S50000x128, .f32⟩
  | .hbm, ⟨121, _⟩ => ⟨S640000x1, .i32⟩
  | .hbm, ⟨122, _⟩ => ⟨S50000x128, .f32⟩
  | .hbm, ⟨123, _⟩ => ⟨S128x128, .f32⟩
  | .hbm, ⟨124, _⟩ => ⟨S128x128, .f32⟩
  | .hbm, ⟨125, _⟩ => ⟨S1x128, .f32⟩
  | .hbm, ⟨126, _⟩ => ⟨S1x128, .f32⟩
  | .hbm, ⟨127, _⟩ => ⟨S50000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v4 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v5 : Ref sig .tc := ⟨.hbm, 60, rfl⟩
abbrev main_call2_c : Ref sig .tc := ⟨.hbm, 61, rfl⟩
abbrev main_call2_v0 : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_c_1 : Ref sig .tc := ⟨.hbm, 69, rfl⟩
abbrev main_call2_c_2 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_3 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_call2_cst : Ref sig .tc := ⟨.hbm, 81, rfl⟩
abbrev main_call2_v15 : Ref sig .tc := ⟨.hbm, 82, rfl⟩
abbrev main_v6 : Ref sig .tc := ⟨.hbm, 83, rfl⟩
abbrev main_call3_c : Ref sig .tc := ⟨.hbm, 84, rfl⟩
abbrev main_call3_v0 : Ref sig .tc := ⟨.hbm, 85, rfl⟩
abbrev main_call3_v1 : Ref sig .tc := ⟨.hbm, 86, rfl⟩
abbrev main_call3_c_0 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_v5 : Ref sig .tc := ⟨.hbm, 91, rfl⟩
abbrev main_call3_c_1 : Ref sig .tc := ⟨.hbm, 92, rfl⟩
abbrev main_call3_c_2 : Ref sig .tc := ⟨.hbm, 93, rfl⟩
abbrev main_call3_v6 : Ref sig .tc := ⟨.hbm, 94, rfl⟩
abbrev main_call3_v7 : Ref sig .tc := ⟨.hbm, 95, rfl⟩
abbrev main_call3_v8 : Ref sig .tc := ⟨.hbm, 96, rfl⟩
abbrev main_call3_v9 : Ref sig .tc := ⟨.hbm, 97, rfl⟩
abbrev main_call3_v10 : Ref sig .tc := ⟨.hbm, 98, rfl⟩
abbrev main_call3_v11 : Ref sig .tc := ⟨.hbm, 99, rfl⟩
abbrev main_call3_c_3 : Ref sig .tc := ⟨.hbm, 100, rfl⟩
abbrev main_call3_v12 : Ref sig .tc := ⟨.hbm, 101, rfl⟩
abbrev main_call3_v13 : Ref sig .tc := ⟨.hbm, 102, rfl⟩
abbrev main_call3_v14 : Ref sig .tc := ⟨.hbm, 103, rfl⟩
abbrev main_call3_cst : Ref sig .tc := ⟨.hbm, 104, rfl⟩
abbrev main_call3_v15 : Ref sig .tc := ⟨.hbm, 105, rfl⟩
abbrev main_v7 : Ref sig .tc := ⟨.hbm, 106, rfl⟩
abbrev main_v8 : Ref sig .tc := ⟨.hbm, 107, rfl⟩
abbrev main_call4_v0 : Ref sig .tc := ⟨.hbm, 108, rfl⟩
abbrev main_call4_cst : Ref sig .tc := ⟨.hbm, 109, rfl⟩
abbrev main_call4_v1 : Ref sig .tc := ⟨.hbm, 110, rfl⟩
abbrev main_v9 : Ref sig .tc := ⟨.hbm, 111, rfl⟩
abbrev main_v10 : Ref sig .tc := ⟨.hbm, 112, rfl⟩
abbrev main_v11 : Ref sig .tc := ⟨.hbm, 113, rfl⟩
abbrev main_v12 : Ref sig .tc := ⟨.hbm, 114, rfl⟩
abbrev main_v13 : Ref sig .tc := ⟨.hbm, 115, rfl⟩
abbrev main_v14 : Ref sig .tc := ⟨.hbm, 116, rfl⟩
abbrev main_v15 : Ref sig .tc := ⟨.hbm, 117, rfl⟩
abbrev main_v16 : Ref sig .tc := ⟨.hbm, 118, rfl⟩
abbrev main_cst : Ref sig .tc := ⟨.hbm, 119, rfl⟩
abbrev main_v17 : Ref sig .tc := ⟨.hbm, 120, rfl⟩
abbrev main_v18 : Ref sig .tc := ⟨.hbm, 121, rfl⟩
abbrev main_v19 : Ref sig .tc := ⟨.hbm, 122, rfl⟩
abbrev main_v20 : Ref sig .tc := ⟨.hbm, 123, rfl⟩
abbrev main_v21 : Ref sig .tc := ⟨.hbm, 124, rfl⟩
abbrev main_v22 : Ref sig .tc := ⟨.hbm, 125, rfl⟩
abbrev main_v23 : Ref sig .tc := ⟨.hbm, 126, rfl⟩
abbrev main_v24 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  bcast_S640000_S640000x3_0 : S640000.BroadcastsInDim S640000x3 (![0] : Fin 1 → Fin S640000x3.rank)
  bcast_S_S640000x3 : S_.BroadcastsInDim S640000x3 (![] : Fin 0 → Fin S640000x3.rank)
  reducesTo_S640000x3_S640000_d1 : S640000x3.ReducesTo [1] S640000
  slices_S257x128_S128x128_0_0 : S257x128.Slices ![0, 0] S128x128
  slices_S257x128_S128x128_128_0 : S257x128.Slices ![128, 0] S128x128
  slices_S257x128_S1x128_256_0 : S257x128.Slices ![256, 0] S1x128
  bcast_S128_S1x128_1 : S128.BroadcastsInDim S1x128 (![1] : Fin 1 → Fin S1x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S4000x1_S4000x128 : S4000x1.Broadcasts S4000x128
  broadcasts_S1x128_S4000x128 : S1x128.Broadcasts S4000x128
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x128_S640000x1_S640000x128_1_0_n_n_0_1_1128_wf : GatherDims.WF S50000x128 S640000x1 S640000x128 [1] [0] [] [0] [] 1 ![1, 128]
  gather_S50000x3_S640000x1_S640000x3_1_0_n_n_0_1_13_wf : GatherDims.WF S50000x3 S640000x1 S640000x3 [1] [0] [] [0] [] 1 ![1, 3]
  dot_S4000x128_S128x128_S4000x128_1_0_0_1_n_n_wf : DotDims.WF S4000x128 S128x128 S4000x128 [1] [0] [0] [1] [] []
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S640000x128.size a
  hwx0_0 : ∀ i : grid0.Coords, EltTy.bits .f32 = 32 ∨ (Rect.block (s := S640000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S640000x128.size a
  hwx0_1 : ∀ i : grid0.Coords, EltTy.bits .f32 = 32 ∨ (Rect.block (s := S640000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S640000x1.size a
  hwx0_2 : ∀ i : grid0.Coords, EltTy.bits .f32 = 32 ∨ (Rect.block (s := S640000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S640000x128.size a
  hwx0_9 : ∀ i : grid0.Coords, EltTy.bits .f32 = 32 ∨ (Rect.block (s := S640000x128) S4000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def gather_S50000x3_S640000x1_S640000x3_1_0_n_n_0_1_13 : GatherDims S50000x3 S640000x1 S640000x3 where
  offsetDims := [1]
  collapsedSliceDims := [0]
  operandBatchingDims := []
  startIndicesBatchingDims := []
  startIndexMap := [0]
  indexVectorDim := 1
  sliceSizes := ![1, 3]
  wf := gather_S50000x3_S640000x1_S640000x3_1_0_n_n_0_1_13_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v4) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S4000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v24) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x640000 : Shape := ⟨2, ![2, 640000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x3 : Shape := ⟨2, ![640000, 3]⟩
abbrev S640000x128 : Shape := ⟨2, ![640000, 128]⟩
abbrev S640000x257 : Shape := ⟨2, ![640000, 257]⟩
abbrev S1x128 : Shape := ⟨2, ![1, 128]⟩
abbrev S50000x256 : Shape := ⟨2, ![50000, 256]⟩

abbrev nBuf : Space → Nat
  | .hbm => 106
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x640000, .i32⟩
  | .hbm, ⟨3, _⟩ => ⟨S257x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x3, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x3, .f32⟩
  | .hbm, ⟨33, _⟩ => ⟨S640000x3, .f32⟩
  | .hbm, ⟨34, _⟩ => ⟨S640000x3, .f32⟩
  | .hbm, ⟨35, _⟩ => ⟨S_, .f32⟩
  | .hbm, ⟨36, _⟩ => ⟨S640000, .f32⟩
  | .hbm, ⟨37, _⟩ => ⟨S640000, .f32⟩
  | .hbm, ⟨38, _⟩ => ⟨S_, .i32⟩
  | .hbm, ⟨39, _⟩ => ⟨S640000, .i32⟩
  | .hbm, ⟨40, _⟩ => ⟨S640000, .i1⟩
  | .hbm, ⟨41, _⟩ => ⟨S_, .i32⟩
  | .hbm, ⟨42, _⟩ => ⟨S640000, .i32⟩
  | .hbm, ⟨43, _⟩ => ⟨S640000, .i32⟩
  | .hbm, ⟨44, _⟩ => ⟨S640000, .i32⟩
  | .hbm, ⟨45, _⟩ => ⟨S640000x1, .i32⟩
  | .hbm, ⟨46, _⟩ => ⟨S640000x128, .f32⟩
  | .hbm, ⟨47, _⟩ => ⟨S_, .i32⟩
  | .hbm, ⟨48, _⟩ => ⟨S640000, .i32⟩
  | .hbm, ⟨49, _⟩ => ⟨S640000, .i1⟩
  | .hbm, ⟨50, _⟩ => ⟨S_, .i32⟩
  | .hbm, ⟨51, _⟩ => ⟨S640000, .i32⟩
  | .hbm, ⟨52, _⟩ => ⟨S640000, .i32⟩
  | .hbm, ⟨53, _⟩ => ⟨S640000, .i32⟩
  | .hbm, ⟨54, _⟩ => ⟨S640000x1, .i32⟩
  | .hbm, ⟨55, _⟩ => ⟨S640000x128, .f32⟩
  | .hbm, ⟨56, _⟩ => ⟨S640000x1, .f32⟩
  | .hbm, ⟨57, _⟩ => ⟨S640000x257, .f32⟩
  | .hbm, ⟨58, _⟩ => ⟨S640000x128, .f32⟩
  | .hbm, ⟨59, _⟩ => ⟨S1x128, .f32⟩
  | .hbm, ⟨60, _⟩ => ⟨S640000x128, .f32⟩
  | .hbm, ⟨61, _⟩ => ⟨S640000x128, .f32⟩
  | .hbm, ⟨62, _⟩ => ⟨S640000x128, .f32⟩
  | .hbm, ⟨63, _⟩ => ⟨S640000x128, .f32⟩
  | .hbm, ⟨64, _⟩ => ⟨S_, .f32⟩
  | .hbm, ⟨65, _⟩ => ⟨S640000x128, .f32⟩
  | .hbm, ⟨66, _⟩ => ⟨S640000x128, .f32⟩
  | .hbm, ⟨67, _⟩ => ⟨S_, .f32⟩
  | .hbm, ⟨68, _⟩ => ⟨S640000x128, .f32⟩
  | .hbm, ⟨69, _⟩ => ⟨S640000x128, .f32⟩
  | .hbm, ⟨70, _⟩ => ⟨S640000x128, .f32⟩
  | .hbm, ⟨71, _⟩ => ⟨S640000x128, .f32⟩
  | .hbm, ⟨72, _⟩ => ⟨S1x128, .f32⟩
  | .hbm, ⟨73, _⟩ => ⟨S640000x128, .f32⟩
  | .hbm, ⟨74, _⟩ => ⟨S640000x128, .f32⟩
  | .hbm, ⟨75, _⟩ => ⟨S640000x128, .f32⟩
  | .hbm, ⟨76, _⟩ => ⟨S640000x128, .f32⟩
  | .hbm, ⟨77, _⟩ => ⟨S_, .f32⟩
  | .hbm, ⟨78, _⟩ => ⟨S640000x128, .f32⟩
  | .hbm, ⟨79, _⟩ => ⟨S640000x128, .f32⟩
  | .hbm, ⟨80, _⟩ => ⟨S_, .f32⟩
  | .hbm, ⟨81, _⟩ => ⟨S640000x128, .f32⟩
  | .hbm, ⟨82, _⟩ => ⟨S640000x128, .f32⟩
  | .hbm, ⟨83, _⟩ => ⟨S640000x128, .f32⟩
  | .hbm, ⟨84, _⟩ => ⟨S_, .f32⟩
  | .hbm, ⟨85, _⟩ => ⟨S50000x128, .f32⟩
  | .hbm, ⟨86, _⟩ => ⟨S640000x1, .i32⟩
  | .hbm, ⟨87, _⟩ => ⟨S50000x128, .f32⟩
  | .hbm, ⟨88, _⟩ => ⟨S50000x256, .f32⟩
  | .hbm, ⟨89, _⟩ => ⟨S50000x128, .f32⟩
  | .hbm, ⟨90, _⟩ => ⟨S1x128, .f32⟩
  | .hbm, ⟨91, _⟩ => ⟨S50000x128, .f32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S50000x128, .f32⟩
  | .hbm, ⟨97, _⟩ => ⟨S50000x128, .f32⟩
  | .hbm, ⟨98, _⟩ => ⟨S_, .f32⟩
  | .hbm, ⟨99, _⟩ => ⟨S50000x128, .f32⟩
  | .hbm, ⟨100, _⟩ => ⟨S50000x128, .f32⟩
  | .hbm, ⟨101, _⟩ => ⟨S50000x128, .f32⟩
  | .hbm, ⟨102, _⟩ => ⟨S50000x128, .f32⟩
  | .hbm, ⟨103, _⟩ => ⟨S1x128, .f32⟩
  | .hbm, ⟨104, _⟩ => ⟨S50000x128, .f32⟩
  | .hbm, ⟨105, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call0_v0 : Ref sig .tc := ⟨.hbm, 34, rfl⟩
abbrev main_call0_cst : Ref sig .tc := ⟨.hbm, 35, rfl⟩
abbrev main_call0_v1 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_call2_v0 : Ref sig .tc := ⟨.hbm, 75, rfl⟩
abbrev main_call2_v1 : Ref sig .tc := ⟨.hbm, 76, rfl⟩
abbrev main_call2_cst : Ref sig .tc := ⟨.hbm, 77, rfl⟩
abbrev main_call2_v2 : Ref sig .tc := ⟨.hbm, 78, rfl⟩
abbrev main_call2_v3 : Ref sig .tc := ⟨.hbm, 79, rfl⟩
abbrev main_call2_cst_0 : Ref sig .tc := ⟨.hbm, 80, rfl⟩
abbrev main_call2_v4 : Ref sig .tc := ⟨.hbm, 81, rfl⟩
abbrev main_call2_v5 : Ref sig .tc := ⟨.hbm, 82, rfl⟩
abbrev main_v45 : Ref sig .tc := ⟨.hbm, 83, rfl⟩
abbrev main_cst : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_call3_v0 : Ref sig .tc := ⟨.hbm, 93, rfl⟩
abbrev main_call3_v1 : Ref sig .tc := ⟨.hbm, 94, rfl⟩
abbrev main_call3_cst : Ref sig .tc := ⟨.hbm, 95, rfl⟩
abbrev main_call3_v2 : Ref sig .tc := ⟨.hbm, 96, rfl⟩
abbrev main_call3_v3 : Ref sig .tc := ⟨.hbm, 97, rfl⟩
abbrev main_call3_cst_0 : Ref sig .tc := ⟨.hbm, 98, rfl⟩
abbrev main_call3_v4 : Ref sig .tc := ⟨.hbm, 99, rfl⟩
abbrev main_call3_v5 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  reducesTo_S640000x3_S640000_d1 : S640000x3.ReducesTo [1] S640000
  h_S_ : 0 < S_.numel
  concatenates_S640000x128_S640000x128_S640000x1_S640000x257_d1 : Shape.Concatenates [S640000x128, S640000x128, S640000x1] S640000x257 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x3_S640000x1_S640000x3_1_0_n_n_0_1_13_wf : GatherDims.WF S50000x3 S640000x1 S640000x3 [1] [0] [] [0] [] 1 ![1, 3]
  gather_S50000x128_S640000x1_S640000x128_1_0_n_n_0_1_1128_wf : GatherDims.WF S50000x128 S640000x1 S640000x128 [1] [0] [] [0] [] 1 ![1, 128]
  dot_S640000x257_S257x128_S640000x128_1_0_0_1_n_n_wf : DotDims.WF S640000x257 S257x128 S640000x128 [1] [0] [0] [1] [] []
  dot_S640000x128_S128x128_S640000x128_1_0_0_1_n_n_wf : DotDims.WF S640000x128 S128x128 S640000x128 [1] [0] [0] [1] [] []
  scatter_S50000x128_S640000x1_S640000x128_1_0_0_1_wf : ScatterDims.WF S50000x128 S640000x1 S640000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x3_S640000x1_S640000x3_1_0_n_n_0_1_13 : GatherDims S50000x3 S640000x1 S640000x3 where
  offsetDims := [1]
  collapsedSliceDims := [0]
  operandBatchingDims := []
  startIndicesBatchingDims := []
  startIndexMap := [0]
  indexVectorDim := 1
  sliceSizes := ![1, 3]
  wf := gather_S50000x3_S640000x1_S640000x3_1_0_n_n_0_1_13_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x257_S257x128_S640000x128_1_0_0_1_n_n : DotDims S640000x257 S257x128 S640000x128 where
  lhsContracting := [1]
  rhsContracting := [0]
  lhsNonContracting := [0]
  rhsNonContracting := [1]
  lhsBatch := []
  rhsBatch := []
  wf := dot_S640000x257_S257x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibReduceAnd.lean ====
/-
  An all-reduce by "and" over ones is one.

  The library reads a 1 result back (every operand bit that reduces into it was 1). This is the other direction:
  when the initial bit is 1 and every operand bit that reduces into result index j is 1, the result at j is 1.
  A host reduce is a left fold from the initial value over the operand positions that reduce into j, so the
  statement is the fold's.
-/
import Idealize.ShloMosaic.Lib.ReduceAll

namespace Idealize.ShloMosaic

namespace IntOp

/-- A left fold by "and" from 1 over bits that are all 1 is 1. -/
theorem foldl_andi_of_forall {ι : Type} (f : ι → BitVec 1) :
    ∀ (l : List ι) (init : BitVec 1), init = 1#1 → (∀ n ∈ l, f n = 1#1) → l.foldl (fun r n => andi r (f n)) init = 1#1
  | [], _, h, _ => h
  | a :: l, _, h, hl =>
    foldl_andi_of_forall f l _ (andi_eq_one.2 ⟨h, hl a List.mem_cons_self⟩) (fun n hn => hl n (List.mem_cons_of_mem _ hn))

end IntOp

namespace Host

variable {s t u : Shape} {axes : List (Fin s.rank)}

/-- A reduce by "and" from the bit 1 is 1 at j when every operand bit that reduces into j is 1. -/
theorem reduce_andi_of_forall (x : s.Idx → BitVec 1) (init : u.Idx → BitVec 1) (h : s.ReducesTo axes t) (hu : 0 < u.numel)
    (j : t.Idx) (hinit : init (Shape.Idx.first hu) = 1#1) (hx : ∀ i, h.drop i = j → x i = 1#1) :
    Host.reduce IntOp.andi x init h hu j = 1#1 := by
  unfold Host.reduce
  refine IntOp.foldl_andi_of_forall (fun n => x (s.rowMajor.symm n)) _ _ hinit (fun n hn => hx _ ?_)
  exact of_decide_eq_true (List.mem_filter.1 hn).2

end Host

end Idealize.ShloMosaic
-- ==== Proof.TakeFill.lean ====
/-
  A row lookup that fills out-of-range reads, on index words that are row numbers.

  The lookup wraps a negative index word by adding the table's height 50000, tests the wrapped word against
  0 and 49999, and where the test fails puts a fill value in place of the gathered row. When every index word w
  already satisfies 0 <= w < 50000 (read as a signed integer) the wrap leaves it alone, the test holds at every
  position, and the result is the gathered rows themselves: the lookup without a fill.
-/
import Idealize.ShloMosaic.Lib.StableHlo.Predicate
import Idealize.ShloMosaic.Lib.ValueIdx
import Idealize.ShloMosaic.Lib.Affine
import proofs.«403448_j36335423324795_1_alg».proof.Proof.LibReduceAnd

noncomputable section

namespace Egnn.Take

open Idealize.ShloMosaic Idealize.ShloMosaic.ValueIdx

abbrev SIdx : Shape := ⟨1, ![640000]⟩
abbrev SIdxCol : Shape := ⟨2, ![640000, 1]⟩
abbrev SScalar : Shape := ⟨0, ![]⟩
abbrev SOne : Shape := ⟨1, ![1]⟩
abbrev SOneOne : Shape := ⟨2, ![1, 1]⟩

/-- An index word that names a row of a table of 50000 rows. -/
def IsRow (w : BitVec 32) : Prop := 0 ≤ w.toInt ∧ w.toInt < 50000

/-- The index vector after a negative word has had the table's height added. -/
abbrev wrapped (hb : SScalar.BroadcastsInDim SIdx ![]) (s : IVec SIdx 32) : IVec SIdx 32 :=
  select (cmpi .slt s (broadcastInDim SIdx ![] hb (constantI SScalar 32 0#32)))
    (addi s (broadcastInDim SIdx ![] hb (constantI SScalar 32 50000#32))) s

/-- A row number is not negative, so the wrap leaves it alone. -/
theorem wrapped_apply (hb : SScalar.BroadcastsInDim SIdx ![]) (s : IVec SIdx 32) (e : SIdx.Idx) (h : IsRow (s e)) :
    wrapped hb s e = s e := by
  show Scalar.select (IntOp.cmpi .slt (s e) 0#32) (IntOp.addi (s e) 50000#32) (s e) = s e
  have hz : IntOp.cmpi .slt (s e) 0#32 = 0#1 := by
    apply eq_zero_of_ne_one
    intro h1
    have h2 := IntOp.cmpi_slt.1 h1
    have h3 : (0#32 : BitVec 32).toInt = 0 := by decide
    have := h.1
    omega
  rw [hz, select_zero]

theorem wrapped_isRow (hb : SScalar.BroadcastsInDim SIdx ![]) (s : IVec SIdx 32) (hs : ∀ e, IsRow (s e)) (e : SIdx.Idx) :
    IsRow (wrapped hb s e) := by
  rw [wrapped_apply hb s e (hs e)]; exact hs e

/-- A row number passes both range tests. -/
theorem tests_of_isRow (v : BitVec 32) (h : IsRow v) :
    IntOp.andi (IntOp.cmpi .sge v 0#32) (IntOp.cmpi .sle v 49999#32) = 1#1 := by
  have h0 : (0#32 : BitVec 32).toInt = 0 := by decide
  have h1 : (49999#32 : BitVec 32).toInt = 49999 := by decide
  refine IntOp.andi_eq_one.2 ⟨IntOp.cmpi_sge.2 ?_, IntOp.cmpi_sle.2 ?_⟩
  · rw [h0]; exact h.1
  · rw [h1]; have := h.2; omega

/-- The in-range test of a column of index words, reduced over the column's unit axis. -/
abbrev inRows (h2 : SIdx.BroadcastsInDim SIdxCol ![0]) (h3 : SScalar.BroadcastsInDim SIdxCol ![])
    (h4 : SOne.BroadcastsInDim SOneOne ![1]) (h5 : SOneOne.BroadcastsInDim SIdxCol ![0, 1])
    (hr : SIdxCol.ReducesTo [1] SIdx) (h0 : 0 < SScalar.numel) (w : IVec SIdx 32) : IVec SIdx 1 :=
  Host.reduce IntOp.andi
    (andi (cmpi .sge (broadcastInDim SIdxCol ![0] h2 w) (broadcastInDim SIdxCol ![] h3 (constantI SScalar 32 0#32)))
      (cmpi .sle (broadcastInDim SIdxCol ![0] h2 w)
        (broadcastInDim SIdxCol ![0, 1] h5 (broadcastInDim SOneOne ![1] h4 (constantI SOne 32 49999#32)))))
    (constantI SScalar 1 1#1) hr h0

/-- On row numbers the test holds at every position. -/
theorem inRows_eq_one (h2 : SIdx.BroadcastsInDim SIdxCol ![0]) (h3 : SScalar.BroadcastsInDim SIdxCol ![])
    (h4 : SOne.BroadcastsInDim SOneOne ![1]) (h5 : SOneOne.BroadcastsInDim SIdxCol ![0, 1])
    (hr : SIdxCol.ReducesTo [1] SIdx) (h0 : 0 < SScalar.numel) (w : IVec SIdx 32) (hw : ∀ e, IsRow (w e)) (e : SIdx.Idx) :
    inRows h2 h3 h4 h5 hr h0 w e = 1#1 := by
  refine Host.reduce_andi_of_forall _ _ hr h0 e rfl (fun i _ => ?_)
  show IntOp.andi (IntOp.cmpi .sge (broadcastInDim SIdxCol ![0] h2 w i) 0#32)
    (IntOp.cmpi .sle (broadcastInDim SIdxCol ![0] h2 w i) 49999#32) = 1#1
  exact tests_of_isRow _ (hw _)

/-- A select whose condition is a broadcast of an all-ones vector returns its first branch. -/
theorem select_of_ones {T : Shape} {α : Type} (dims : Fin SIdx.rank → Fin T.rank) (h6 : SIdx.BroadcastsInDim T dims)
    (mask : IVec SIdx 1) (hm : ∀ e, mask e = 1#1) (g fill : T.Idx → α) :
    select (broadcastInDim T dims h6 mask) g fill = g := by
  funext i
  show Scalar.select (broadcastInDim T dims h6 mask i) (g i) (fill i) = g i
  have : broadcastInDim T dims h6 mask i = 1#1 := hm _
  rw [this, select_one]

/-- THE LOOKUP: on index words that are row numbers, rows gathered at the wrapped words with out-of-range reads filled
    are the rows gathered at the wrapped words. g is the gather as a function of its column of start indices. -/
theorem take_fill {T : Shape} {α : Type} (dims : Fin SIdx.rank → Fin T.rank) (h6 : SIdx.BroadcastsInDim T dims)
    (hb : SScalar.BroadcastsInDim SIdx ![]) (h2 : SIdx.BroadcastsInDim SIdxCol ![0]) (h3 : SScalar.BroadcastsInDim SIdxCol ![])
    (h4 : SOne.BroadcastsInDim SOneOne ![1]) (h5 : SOneOne.BroadcastsInDim SIdxCol ![0, 1])
    (hr : SIdxCol.ReducesTo [1] SIdx) (h0 : 0 < SScalar.numel) (s : IVec SIdx 32) (hs : ∀ e, IsRow (s e))
    (g : IVec SIdxCol 32 → T.Idx → α) (fill : T.Idx → α) :
    select (broadcastInDim T dims h6 (inRows h2 h3 h4 h5 hr h0 (wrapped hb s)))
        (g (broadcastInDim SIdxCol ![0] h2 (wrapped hb s))) fill
      = g (broadcastInDim SIdxCol ![0] h2 (wrapped hb s)) :=
  select_of_ones dims h6 _ (inRows_eq_one h2 h3 h4 h5 hr h0 _ (wrapped_isRow hb s hs)) _ _

end Egnn.Take

end
-- ==== Proof.PreRange.lean ====
/-
  What the precondition says of the edge index words.

  The precondition is a conjunction of "all" tests reduced to one bit; its last conjunct tests every entry w of the
  edge index array [2, 640000] for 0 <= w and w < 50000 as signed integers. So when the precondition holds every
  entry is a row number of the node tables.
-/
import proofs.«403448_j36335423324795_1_alg».proof.Pre_finite_inputs
import proofs.«403448_j36335423324795_1_alg».proof.Proof.TakeFill
import Idealize.ShloMosaic.Lib.ReduceAll
import Idealize.ShloMosaic.Lib.Affine
import Idealize.ShloMosaic.Lib.ValueIdx

noncomputable section

namespace Egnn.PreRange

open Idealize.ShloMosaic Idealize.ShloMosaic.ValueIdx Cert.Pre_finite_inputs

instance : Subsingleton S_.Idx := ⟨fun a b => funext fun d => d.elim0⟩

/-- Under the precondition every edge index word is a row number. -/
theorem rows_of_pre [Facts] {F : FTy → Type} [FloatOps F] (a0 : FVec F S50000x128 .f32) (a1 : FVec F S50000x3 .f32)
    (a2 : IVec S2x640000 32) (a3 : FVec F S257x128 .f32) (a4 : FVec F S128 .f32) (a5 : FVec F S128x128 .f32)
    (a6 : FVec F S128 .f32) (a7 : FVec F S256x128 .f32) (a8 : FVec F S128 .f32) (a9 : FVec F S128x128 .f32)
    (a10 : FVec F S128 .f32)
    (h : fn (F := F) a0 a1 a2 a3 a4 a5 a6 a7 a8 a9 a10 = fun _ => 1#1) (i : S2x640000.Idx) : Egnn.Take.IsRow (a2 i) := by
  have h0 := congrFun h ix0
  dsimp only [fn, fn_part1, fn_part2, fn_part3] at h0
  have h1 := (IntOp.andi_eq_one.1 h0).2
  have h2 := Host.reduce_andi_all _ _ _ _ _ h1 i
  obtain ⟨h3, h4⟩ := IntOp.andi_eq_one.1 h2
  have z0 : (0#32 : BitVec 32).toInt = 0 := by decide
  have z1 : (50000#32 : BitVec 32).toInt = 50000 := by decide
  have g3 := IntOp.cmpi_sge.1 h3
  have g4 := IntOp.cmpi_slt.1 h4
  exact ⟨z0 ▸ g3, z1 ▸ g4⟩

end Egnn.PreRange

end
-- ==== Proof.LibTypedRef.lean ====
/-
  A typed reference's transport, and its inverse.

  A line of a module-local function writes its result to a buffer through a transport along an equation of buffer
  types (`TRef.toBuf`) and a later line of the function reads it back through the inverse transport (`TRef.ofBuf`).
  Whatever the equation's proof, a value carried there and back is the value: the two transports cancel. So where
  the lines of such a function are read back as values, every pair "written, then read" disappears by these two
  lemmas, with no need to decide that the two buffer types are the same type; a transport is then left only where
  a line of the function reads a buffer written outside it, or writes one read outside it — at the ends of the
  function's stretch of lines, where it is the identity on a value that already has a name.
-/
import Idealize.ShloMosaic.Lib.StableHlo

namespace Idealize.ShloMosaic.StableHlo

/-- A value carried along an equation of types and back is itself. -/
theorem cast_cast_cancel {α β : Sort _} (h : α = β) (h' : β = α) (v : α) : cast h' (cast h v) = v := by subst h; rfl

/-- What a typed reference writes to its buffer and reads back is the value written. -/
theorem TRef.ofBuf_toBuf {sig : RefSig} {Val : EltTy → Type} {T : BufTy} (x : TRef sig T) (v : T.Contents Val) :
    x.ofBuf (x.toBuf v) = v := cast_cast_cancel _ _ v

/-- What is read from a typed reference's buffer and written back is what was there. -/
theorem TRef.toBuf_ofBuf {sig : RefSig} {Val : EltTy → Type} {T : BufTy} (x : TRef sig T) (v : x.ref.ty.Contents Val) :
    x.toBuf (x.ofBuf v) = v := cast_cast_cancel _ _ v

end Idealize.ShloMosaic.StableHlo
-- ==== Proof.RefRun.lean ====
/-
  The reference program's run, read stretch by stretch.

  The reference's @main is a straight line of 95 host operations. Cut into stretches before each of its two joins (and once more after the scatter-add), it computes:
  (A) the index words, the four gathers and the distance column; (B) the joined edge state, the two dense layers of the
  edge stage with their silu, giving the message array; (C) the scatter-add of the messages at the rec words, the joined
  node row, and the two dense layers of the node stage, giving the result. Each stretch is read once from arbitrary
  starting contents; a buffer a stretch does not write passes through it. Composed, the result buffer after the whole
  line is the result stage function of the launch arrays, and the argument arrays are untouched.
-/
import proofs.«403448_j36335423324795_1_alg».proof.Proof.ReadP
import proofs.«403448_j36335423324795_1_alg».proof.Proof.LibTypedRef
import Idealize.ShloMosaic.Lib.StableHlo.Run
import Idealize.ShloMosaic.Lib.Pipeline.Frame

set_option maxRecDepth 16384

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The three stretches -/

/-- Operations 0 to 45: index words, gathers, distance column. -/
abbrev opsA : List (HloOp τ sig (Elt F)) :=
  [ unary main_arg2 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg2 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000,
    nullary main_c (constantI S_ 32 0#32),
    unary main_c main_v4 (broadcastInDim S640000 ![] bcast_S_S640000 : (⟨S_, .i32⟩ : BufTy).Contents (Elt F) → (⟨S640000, .i32⟩ : BufTy).Contents (Elt F)),
    binary main_v1 main_v4 main_v5 (cmpi .slt : (⟨S640000, .i32⟩ : BufTy).Contents (Elt F) → (⟨S640000, .i32⟩ : BufTy).Contents (Elt F) → (⟨S640000, .i1⟩ : BufTy).Contents (Elt F)),
    nullary main_c_0 (constantI S_ 32 50000#32),
    unary main_c_0 main_v6 (broadcastInDim S640000 ![] bcast_S_S640000 : (⟨S_, .i32⟩ : BufTy).Contents (Elt F) → (⟨S640000, .i32⟩ : BufTy).Contents (Elt F)),
    binary main_v1 main_v6 main_v7 (addi : (⟨S640000, .i32⟩ : BufTy).Contents (Elt F) → (⟨S640000, .i32⟩ : BufTy).Contents (Elt F) → (⟨S640000, .i32⟩ : BufTy).Contents (Elt F)),
    ternary main_v5 main_v7 main_v1 main_v8 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v8 main_v9 (broadcastInDim S640000x1 ![0] bcast_S640000_S640000x1_0 : (⟨S640000, .i32⟩ : BufTy).Contents (Elt F) → (⟨S640000x1, .i32⟩ : BufTy).Contents (Elt F)),
    binary main_arg1 main_v9 main_v10 ((fun x i => Host.gather gather_S50000x3_S640000x1_S640000x3_1_0_n_n_0_1_13 x i) : (⟨S50000x3, .f32⟩ : BufTy).Contents (Elt F) → (⟨S640000x1, .i32⟩ : BufTy).Contents (Elt F) → (⟨S640000x3, .f32⟩ : BufTy).Contents (Elt F)),
    nullary main_c_1 (constantI S_ 32 0#32),
    unary main_c_1 main_v11 (broadcastInDim S640000 ![] bcast_S_S640000 : (⟨S_, .i32⟩ : BufTy).Contents (Elt F) → (⟨S640000, .i32⟩ : BufTy).Contents (Elt F)),
    binary main_v3 main_v11 main_v12 (cmpi .slt : (⟨S640000, .i32⟩ : BufTy).Contents (Elt F) → (⟨S640000, .i32⟩ : BufTy).Contents (Elt F) → (⟨S640000, .i1⟩ : BufTy).Contents (Elt F)),
    nullary main_c_2 (constantI S_ 32 50000#32),
    unary main_c_2 main_v13 (broadcastInDim S640000 ![] bcast_S_S640000 : (⟨S_, .i32⟩ : BufTy).Contents (Elt F) → (⟨S640000, .i32⟩ : BufTy).Contents (Elt F)),
    binary main_v3 main_v13 main_v14 (addi : (⟨S640000, .i32⟩ : BufTy).Contents (Elt F) → (⟨S640000, .i32⟩ : BufTy).Contents (Elt F) → (⟨S640000, .i32⟩ : BufTy).Contents (Elt F)),
    ternary main_v12 main_v14 main_v3 main_v15 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v15 main_v16 (broadcastInDim S640000x1 ![0] bcast_S640000_S640000x1_0 : (⟨S640000, .i32⟩ : BufTy).Contents (Elt F) → (⟨S640000x1, .i32⟩ : BufTy).Contents (Elt F)),
    binary main_arg1 main_v16 main_v17 ((fun x i => Host.gather gather_S50000x3_S640000x1_S640000x3_1_0_n_n_0_1_13 x i) : (⟨S50000x3, .f32⟩ : BufTy).Contents (Elt F) → (⟨S640000x1, .i32⟩ : BufTy).Contents (Elt F) → (⟨S640000x3, .f32⟩ : BufTy).Contents (Elt F)),
    binary main_v10 main_v17 main_v18 (subf : (⟨S640000x3, .f32⟩ : BufTy).Contents (Elt F) → (⟨S640000x3, .f32⟩ : BufTy).Contents (Elt F) → (⟨S640000x3, .f32⟩ : BufTy).Contents (Elt F)),
    TRef.binary (TRef.of (T := ⟨S640000x3, .f32⟩) main_v18) (TRef.of (T := ⟨S640000x3, .f32⟩) main_v18) (TRef.of (T := ⟨S640000x3, .f32⟩) main_call0_v0) mulf,
    TRef.nullary (TRef.of (T := ⟨S_, .f32⟩) main_call0_cst) (constant S_ .f32 0x00000000#32),
    TRef.binary (TRef.of (T := ⟨S640000x3, .f32⟩) main_call0_v0) (TRef.of (T := ⟨S_, .f32⟩) main_call0_cst) (TRef.of (T := ⟨S640000, .f32⟩) main_call0_v1) (fun x v => Host.reduceAdd x v reducesTo_S640000x3_S640000_d1 h_S_),
    TRef.unary (TRef.of (T := ⟨S640000, .f32⟩) main_call0_v1) (TRef.of (T := ⟨S640000, .f32⟩) main_v19) Host.sqrt,
    nullary main_c_3 (constantI S_ 32 0#32),
    unary main_c_3 main_v20 (broadcastInDim S640000 ![] bcast_S_S640000 : (⟨S_, .i32⟩ : BufTy).Contents (Elt F) → (⟨S640000, .i32⟩ : BufTy).Contents (Elt F)),
    binary main_v1 main_v20 main_v21 (cmpi .slt : (⟨S640000, .i32⟩ : BufTy).Contents (Elt F) → (⟨S640000, .i32⟩ : BufTy).Contents (Elt F) → (⟨S640000, .i1⟩ : BufTy).Contents (Elt F)),
    nullary main_c_4 (constantI S_ 32 50000#32),
    unary main_c_4 main_v22 (broadcastInDim S640000 ![] bcast_S_S640000 : (⟨S_, .i32⟩ : BufTy).Contents (Elt F) → (⟨S640000, .i32⟩ : BufTy).Contents (Elt F)),
    binary main_v1 main_v22 main_v23 (addi : (⟨S640000, .i32⟩ : BufTy).Contents (Elt F) → (⟨S640000, .i32⟩ : BufTy).Contents (Elt F) → (⟨S640000, .i32⟩ : BufTy).Contents (Elt F)),
    ternary main_v21 main_v23 main_v1 main_v24 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v24 main_v25 (broadcastInDim S640000x1 ![0] bcast_S640000_S640000x1_0 : (⟨S640000, .i32⟩ : BufTy).Contents (Elt F) → (⟨S640000x1, .i32⟩ : BufTy).Contents (Elt F)),
    binary main_arg0 main_v25 main_v26 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    nullary main_c_5 (constantI S_ 32 0#32),
    unary main_c_5 main_v27 (broadcastInDim S640000 ![] bcast_S_S640000 : (⟨S_, .i32⟩ : BufTy).Contents (Elt F) → (⟨S640000, .i32⟩ : BufTy).Contents (Elt F)),
    binary main_v3 main_v27 main_v28 (cmpi .slt : (⟨S640000, .i32⟩ : BufTy).Contents (Elt F) → (⟨S640000, .i32⟩ : BufTy).Contents (Elt F) → (⟨S640000, .i1⟩ : BufTy).Contents (Elt F)),
    nullary main_c_6 (constantI S_ 32 50000#32),
    unary main_c_6 main_v29 (broadcastInDim S640000 ![] bcast_S_S640000 : (⟨S_, .i32⟩ : BufTy).Contents (Elt F) → (⟨S640000, .i32⟩ : BufTy).Contents (Elt F)),
    binary main_v3 main_v29 main_v30 (addi : (⟨S640000, .i32⟩ : BufTy).Contents (Elt F) → (⟨S640000, .i32⟩ : BufTy).Contents (Elt F) → (⟨S640000, .i32⟩ : BufTy).Contents (Elt F)),
    ternary main_v28 main_v30 main_v3 main_v31 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v31 main_v32 (broadcastInDim S640000x1 ![0] bcast_S640000_S640000x1_0 : (⟨S640000, .i32⟩ : BufTy).Contents (Elt F) → (⟨S640000x1, .i32⟩ : BufTy).Contents (Elt F)),
    binary main_arg0 main_v32 main_v33 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    unary main_v19 main_v34 (broadcastInDim S640000x1 ![0] bcast_S640000_S640000x1_0 : (⟨S640000, .f32⟩ : BufTy).Contents (Elt F) → (⟨S640000x1, .f32⟩ : BufTy).Contents (Elt F)) ]

/-- Operations 46 to 72: the edge stage. -/
abbrev opsB : List (HloOp τ sig (Elt F)) :=
  [ nary ![main_v26, main_v33, main_v34] main_v35 (fun u => concatenate S640000x257 1 [⟨S640000x128, u 0⟩, ⟨S640000x128, u 1⟩, ⟨S640000x1, u 2⟩] concatenates_S640000x128_S640000x128_S640000x1_S640000x257_d1),
    binary main_v35 main_arg3 main_v36 ((fun l r => Host.dotGeneral dot_S640000x257_S257x128_S640000x128_1_0_0_1_n_n none l r) : (⟨S640000x257, .f32⟩ : BufTy).Contents (Elt F) → (⟨S257x128, .f32⟩ : BufTy).Contents (Elt F) → (⟨S640000x128, .f32⟩ : BufTy).Contents (Elt F)),
    unary main_arg4 main_v37 (broadcastInDim S1x128 ![1] bcast_S128_S1x128_1 : (⟨S128, .f32⟩ : BufTy).Contents (Elt F) → (⟨S1x128, .f32⟩ : BufTy).Contents (Elt F)),
    unary main_v37 main_v38 (broadcastInDim S640000x128 ![0, 1] bcast_S1x128_S640000x128_0_1 : (⟨S1x128, .f32⟩ : BufTy).Contents (Elt F) → (⟨S640000x128, .f32⟩ : BufTy).Contents (Elt F)),
    binary main_v36 main_v38 main_v39 (addf : (⟨S640000x128, .f32⟩ : BufTy).Contents (Elt F) → (⟨S640000x128, .f32⟩ : BufTy).Contents (Elt F) → (⟨S640000x128, .f32⟩ : BufTy).Contents (Elt F)),
    TRef.unary (TRef.of (T := ⟨S640000x128, .f32⟩) main_v39) (TRef.of (T := ⟨S640000x128, .f32⟩) main_call1_v0) Host.negf,
    TRef.unary (TRef.of (T := ⟨S640000x128, .f32⟩) main_call1_v0) (TRef.of (T := ⟨S640000x128, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S640000x128, .f32⟩) main_call1_v2) (broadcastInDim S640000x128 ![] bcast_S_S640000x128),
    TRef.binary (TRef.of (T := ⟨S640000x128, .f32⟩) main_call1_v2) (TRef.of (T := ⟨S640000x128, .f32⟩) main_call1_v1) (TRef.of (T := ⟨S640000x128, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S640000x128, .f32⟩) main_call1_v4) (broadcastInDim S640000x128 ![] bcast_S_S640000x128),
    TRef.binary (TRef.of (T := ⟨S640000x128, .f32⟩) main_call1_v4) (TRef.of (T := ⟨S640000x128, .f32⟩) main_call1_v3) (TRef.of (T := ⟨S640000x128, .f32⟩) main_call1_v5) Host.divf,
    TRef.binary (TRef.of (T := ⟨S640000x128, .f32⟩) main_v39) (TRef.of (T := ⟨S640000x128, .f32⟩) main_call1_v5) (TRef.of (T := ⟨S640000x128, .f32⟩) main_v40) mulf,
    binary main_v40 main_arg5 main_v41 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    unary main_arg6 main_v42 (broadcastInDim S1x128 ![1] bcast_S128_S1x128_1 : (⟨S128, .f32⟩ : BufTy).Contents (Elt F) → (⟨S1x128, .f32⟩ : BufTy).Contents (Elt F)),
    unary main_v42 main_v43 (broadcastInDim S640000x128 ![0, 1] bcast_S1x128_S640000x128_0_1 : (⟨S1x128, .f32⟩ : BufTy).Contents (Elt F) → (⟨S640000x128, .f32⟩ : BufTy).Contents (Elt F)),
    binary main_v41 main_v43 main_v44 (addf : (⟨S640000x128, .f32⟩ : BufTy).Contents (Elt F) → (⟨S640000x128, .f32⟩ : BufTy).Contents (Elt F) → (⟨S640000x128, .f32⟩ : BufTy).Contents (Elt F)),
    TRef.unary (TRef.of (T := ⟨S640000x128, .f32⟩) main_v44) (TRef.of (T := ⟨S640000x128, .f32⟩) main_call2_v0) Host.negf,
    TRef.unary (TRef.of (T := ⟨S640000x128, .f32⟩) main_call2_v0) (TRef.of (T := ⟨S640000x128, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S640000x128, .f32⟩) main_call2_v2) (broadcastInDim S640000x128 ![] bcast_S_S640000x128),
    TRef.binary (TRef.of (T := ⟨S640000x128, .f32⟩) main_call2_v2) (TRef.of (T := ⟨S640000x128, .f32⟩) main_call2_v1) (TRef.of (T := ⟨S640000x128, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S640000x128, .f32⟩) main_call2_v4) (broadcastInDim S640000x128 ![] bcast_S_S640000x128),
    TRef.binary (TRef.of (T := ⟨S640000x128, .f32⟩) main_call2_v4) (TRef.of (T := ⟨S640000x128, .f32⟩) main_call2_v3) (TRef.of (T := ⟨S640000x128, .f32⟩) main_call2_v5) Host.divf,
    TRef.binary (TRef.of (T := ⟨S640000x128, .f32⟩) main_v44) (TRef.of (T := ⟨S640000x128, .f32⟩) main_call2_v5) (TRef.of (T := ⟨S640000x128, .f32⟩) main_v45) mulf ]

/-- Operations 73 to 76: the scatter-add of the messages at the rec words. -/
abbrev opsC1 : List (HloOp τ sig (Elt F)) :=
  [ nullary main_cst (constant S_ .f32 0x00000000#32),
    unary main_cst main_v46 (broadcastInDim S50000x128 ![] bcast_S_S50000x128 : (⟨S_, .f32⟩ : BufTy).Contents (Elt F) → (⟨S50000x128, .f32⟩ : BufTy).Contents (Elt F)),
    unary main_v3 main_v47 (broadcastInDim S640000x1 ![0] bcast_S640000_S640000x1_0 : (⟨S640000, .i32⟩ : BufTy).Contents (Elt F) → (⟨S640000x1, .i32⟩ : BufTy).Contents (Elt F)),
    ternary main_v46 main_v47 main_v45 main_v48 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)) ]

/-- Operations 77 to 94: the joined node row and the node stage. -/
abbrev opsC2 : List (HloOp τ sig (Elt F)) :=
  [ binary main_arg0 main_v48 main_v49 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v49 main_arg7 main_v50 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg8 main_v51 (broadcastInDim S1x128 ![1] bcast_S128_S1x128_1 : (⟨S128, .f32⟩ : BufTy).Contents (Elt F) → (⟨S1x128, .f32⟩ : BufTy).Contents (Elt F)),
    unary main_v51 main_v52 (broadcastInDim S50000x128 ![0, 1] bcast_S1x128_S50000x128_0_1 : (⟨S1x128, .f32⟩ : BufTy).Contents (Elt F) → (⟨S50000x128, .f32⟩ : BufTy).Contents (Elt F)),
    binary main_v50 main_v52 main_v53 (addf : (⟨S50000x128, .f32⟩ : BufTy).Contents (Elt F) → (⟨S50000x128, .f32⟩ : BufTy).Contents (Elt F) → (⟨S50000x128, .f32⟩ : BufTy).Contents (Elt F)),
    TRef.unary (TRef.of (T := ⟨S50000x128, .f32⟩) main_v53) (TRef.of (T := ⟨S50000x128, .f32⟩) main_call3_v0) Host.negf,
    TRef.unary (TRef.of (T := ⟨S50000x128, .f32⟩) main_call3_v0) (TRef.of (T := ⟨S50000x128, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S50000x128, .f32⟩) main_call3_v2) (broadcastInDim S50000x128 ![] bcast_S_S50000x128),
    TRef.binary (TRef.of (T := ⟨S50000x128, .f32⟩) main_call3_v2) (TRef.of (T := ⟨S50000x128, .f32⟩) main_call3_v1) (TRef.of (T := ⟨S50000x128, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S50000x128, .f32⟩) main_call3_v4) (broadcastInDim S50000x128 ![] bcast_S_S50000x128),
    TRef.binary (TRef.of (T := ⟨S50000x128, .f32⟩) main_call3_v4) (TRef.of (T := ⟨S50000x128, .f32⟩) main_call3_v3) (TRef.of (T := ⟨S50000x128, .f32⟩) main_call3_v5) Host.divf,
    TRef.binary (TRef.of (T := ⟨S50000x128, .f32⟩) main_v53) (TRef.of (T := ⟨S50000x128, .f32⟩) main_call3_v5) (TRef.of (T := ⟨S50000x128, .f32⟩) main_v54) mulf,
    binary main_v54 main_arg9 main_v55 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg10 main_v56 (broadcastInDim S1x128 ![1] bcast_S128_S1x128_1 : (⟨S128, .f32⟩ : BufTy).Contents (Elt F) → (⟨S1x128, .f32⟩ : BufTy).Contents (Elt F)),
    unary main_v56 main_v57 (broadcastInDim S50000x128 ![0, 1] bcast_S1x128_S50000x128_0_1 : (⟨S1x128, .f32⟩ : BufTy).Contents (Elt F) → (⟨S50000x128, .f32⟩ : BufTy).Contents (Elt F)),
    binary main_v55 main_v57 main_v58 (addf : (⟨S50000x128, .f32⟩ : BufTy).Contents (Elt F) → (⟨S50000x128, .f32⟩ : BufTy).Contents (Elt F) → (⟨S50000x128, .f32⟩ : BufTy).Contents (Elt F)) ]

set_option maxRecDepth 65536 in
theorem ops_split : (ops : List (HloOp τ sig (Elt F))) = opsA ++ (opsB ++ (opsC1 ++ opsC2)) := rfl

theorem ops_fresh : (ops : List (HloOp τ sig (Elt F))).Forall fun op => op.fresh = ∅ := by
  simp only [List.Forall]; repeat' constructor

/-- A stretch that does not write a buffer leaves it. -/
macro "passes_through" r:term : tactic =>
  `(tactic| (refine StableHlo.after_of_forall_not_mem (b := Proc.devRef .tc $r) _ _ (List.forall_iff_forall_mem.mp ?_)
             simp only [ops, opsA, opsB, opsC1, opsC2, List.Forall, StableHlo.nullary_writes, StableHlo.unary_writes, StableHlo.binary_writes,
               StableHlo.ternary_writes, StableHlo.quaternary_writes, StableHlo.reshape_writes, StableHlo.binaryIndexed_writes,
               StableHlo.nary_writes, Finset.mem_singleton]
             repeat' apply And.intro
             all_goals exact StableHlo.devRef_ne_of_ne (by decide)))

/-- Removes the transports a called function's lines leave around values written and read back. -/
macro "drop_transports" : tactic =>
  `(tactic| (try simp only [StableHlo.TRef.ofBuf_toBuf]; try simp only [StableHlo.TRef.ofBuf, StableHlo.TRef.toBuf, cast_eq]))

/-! ## Stretch A, from any contents -/

section StretchA
variable (U : Valuation τ sig (Elt F))

theorem A_v3 : StableHlo.after (opsA (F := F)) U (Proc.devRef .tc main_v3) = val_main_v3 (F := F) (U (Proc.devRef .tc main_arg2)) := by
  simp only [opsA]; after_results_simp; drop_transports; rfl
theorem A_v26 : StableHlo.after (opsA (F := F)) U (Proc.devRef .tc main_v26)
    = val_main_v26 (F := F) (U (Proc.devRef .tc main_arg0)) (U (Proc.devRef .tc main_arg2)) := by
  simp only [opsA]; after_results_simp; drop_transports; rfl
theorem A_v33 : StableHlo.after (opsA (F := F)) U (Proc.devRef .tc main_v33)
    = val_main_v33 (F := F) (U (Proc.devRef .tc main_arg0)) (U (Proc.devRef .tc main_arg2)) := by
  simp only [opsA]; after_results_simp; drop_transports; rfl
theorem A_v34 : StableHlo.after (opsA (F := F)) U (Proc.devRef .tc main_v34)
    = val_main_v34 (F := F) (U (Proc.devRef .tc main_arg1)) (U (Proc.devRef .tc main_arg2)) := by
  simp only [opsA]; after_results_simp; drop_transports; rfl

theorem A_arg0 : StableHlo.after (opsA (F := F)) U (Proc.devRef .tc main_arg0) = U (Proc.devRef .tc main_arg0) := by passes_through main_arg0
theorem A_arg3 : StableHlo.after (opsA (F := F)) U (Proc.devRef .tc main_arg3) = U (Proc.devRef .tc main_arg3) := by passes_through main_arg3
theorem A_arg4 : StableHlo.after (opsA (F := F)) U (Proc.devRef .tc main_arg4) = U (Proc.devRef .tc main_arg4) := by passes_through main_arg4
theorem A_arg5 : StableHlo.after (opsA (F := F)) U (Proc.devRef .tc main_arg5) = U (Proc.devRef .tc main_arg5) := by passes_through main_arg5
theorem A_arg6 : StableHlo.after (opsA (F := F)) U (Proc.devRef .tc main_arg6) = U (Proc.devRef .tc main_arg6) := by passes_through main_arg6
theorem A_arg7 : StableHlo.after (opsA (F := F)) U (Proc.devRef .tc main_arg7) = U (Proc.devRef .tc main_arg7) := by passes_through main_arg7
theorem A_arg8 : StableHlo.after (opsA (F := F)) U (Proc.devRef .tc main_arg8) = U (Proc.devRef .tc main_arg8) := by passes_through main_arg8
theorem A_arg9 : StableHlo.after (opsA (F := F)) U (Proc.devRef .tc main_arg9) = U (Proc.devRef .tc main_arg9) := by passes_through main_arg9
theorem A_arg10 : StableHlo.after (opsA (F := F)) U (Proc.devRef .tc main_arg10) = U (Proc.devRef .tc main_arg10) := by passes_through main_arg10

theorem B_v3 : StableHlo.after (opsB (F := F)) U (Proc.devRef .tc main_v3) = U (Proc.devRef .tc main_v3) := by passes_through main_v3
theorem B_arg0 : StableHlo.after (opsB (F := F)) U (Proc.devRef .tc main_arg0) = U (Proc.devRef .tc main_arg0) := by passes_through main_arg0
theorem B_arg7 : StableHlo.after (opsB (F := F)) U (Proc.devRef .tc main_arg7) = U (Proc.devRef .tc main_arg7) := by passes_through main_arg7
theorem B_arg8 : StableHlo.after (opsB (F := F)) U (Proc.devRef .tc main_arg8) = U (Proc.devRef .tc main_arg8) := by passes_through main_arg8
theorem B_arg9 : StableHlo.after (opsB (F := F)) U (Proc.devRef .tc main_arg9) = U (Proc.devRef .tc main_arg9) := by passes_through main_arg9
theorem B_arg10 : StableHlo.after (opsB (F := F)) U (Proc.devRef .tc main_arg10) = U (Proc.devRef .tc main_arg10) := by passes_through main_arg10

theorem C1_arg0 : StableHlo.after (opsC1 (F := F)) U (Proc.devRef .tc main_arg0) = U (Proc.devRef .tc main_arg0) := by passes_through main_arg0
theorem C1_arg7 : StableHlo.after (opsC1 (F := F)) U (Proc.devRef .tc main_arg7) = U (Proc.devRef .tc main_arg7) := by passes_through main_arg7
theorem C1_arg8 : StableHlo.after (opsC1 (F := F)) U (Proc.devRef .tc main_arg8) = U (Proc.devRef .tc main_arg8) := by passes_through main_arg8
theorem C1_arg9 : StableHlo.after (opsC1 (F := F)) U (Proc.devRef .tc main_arg9) = U (Proc.devRef .tc main_arg9) := by passes_through main_arg9
theorem C1_arg10 : StableHlo.after (opsC1 (F := F)) U (Proc.devRef .tc main_arg10) = U (Proc.devRef .tc main_arg10) := by passes_through main_arg10

end StretchA

/-! ## Stretches B and C over what came before -/

section Composed
variable (V : Valuation τ sig (Elt F))

/-- After stretches A and B the message buffer holds the message stage function of the launch arrays. -/
theorem AB_v45 : StableHlo.after (opsB (F := F)) (StableHlo.after (opsA (F := F)) V) (Proc.devRef .tc main_v45)
    = val_main_v45 (F := F) (V (Proc.devRef .tc main_arg0)) (V (Proc.devRef .tc main_arg1)) (V (Proc.devRef .tc main_arg2))
        (V (Proc.devRef .tc main_arg3)) (V (Proc.devRef .tc main_arg4)) (V (Proc.devRef .tc main_arg5)) (V (Proc.devRef .tc main_arg6)) := by
  have h26 := A_v26 V
  have h33 := A_v33 V
  have h34 := A_v34 V
  have h3 := A_arg3 V
  have h4 := A_arg4 V
  have h5 := A_arg5 V
  have h6 := A_arg6 V
  generalize StableHlo.after (opsA (F := F)) V = UA at h26 h33 h34 h3 h4 h5 h6 ⊢
  simp only [opsB]
  after_results_simp
  drop_transports
  dsimp only [Matrix.cons_val_zero, Matrix.cons_val_one, Matrix.head_cons, Matrix.cons_val_two, Matrix.tail_cons]
  have h34' : UA (Proc.devRef .tc (Matrix.vecHead (Matrix.vecTail ![main_v33, main_v34])))
      = val_main_v34 (F := F) (V (Proc.devRef .tc main_arg1)) (V (Proc.devRef .tc main_arg2)) := h34
  rw [h26, h33, h34', h3, h4, h5, h6]
  rfl

/-- After stretches A, B and the scatter-add, the aggregate buffer holds the aggregate stage function of the launch arrays. -/
theorem ABC1_v48 : StableHlo.after (opsC1 (F := F)) (StableHlo.after (opsB (F := F)) (StableHlo.after (opsA (F := F)) V)) (Proc.devRef .tc main_v48)
    = val_main_v48 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  have h45 := AB_v45 V
  have hv3 := (B_v3 (StableHlo.after (opsA (F := F)) V)).trans (A_v3 V)
  generalize StableHlo.after (opsB (F := F)) (StableHlo.after (opsA (F := F)) V) = UB at h45 hv3 ⊢
  simp only [opsC1]
  after_results_simp
  drop_transports
  rw [h45, hv3]
  rfl

/-- After the whole line the result buffer holds the result stage function of the launch arrays. -/
theorem ABC_v58 : StableHlo.after (opsC2 (F := F)) (StableHlo.after (opsC1 (F := F)) (StableHlo.after (opsB (F := F)) (StableHlo.after (opsA (F := F)) V))) (Proc.devRef .tc main_v58)
    = val_main_v58 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  have h48 := ABC1_v48 V
  have h0 := (C1_arg0 (StableHlo.after (opsB (F := F)) (StableHlo.after (opsA (F := F)) V))).trans ((B_arg0 (StableHlo.after (opsA (F := F)) V)).trans (A_arg0 V))
  have h7 := (C1_arg7 (StableHlo.after (opsB (F := F)) (StableHlo.after (opsA (F := F)) V))).trans ((B_arg7 (StableHlo.after (opsA (F := F)) V)).trans (A_arg7 V))
  have h8 := (C1_arg8 (StableHlo.after (opsB (F := F)) (StableHlo.after (opsA (F := F)) V))).trans ((B_arg8 (StableHlo.after (opsA (F := F)) V)).trans (A_arg8 V))
  have h9 := (C1_arg9 (StableHlo.after (opsB (F := F)) (StableHlo.after (opsA (F := F)) V))).trans ((B_arg9 (StableHlo.after (opsA (F := F)) V)).trans (A_arg9 V))
  have h10 := (C1_arg10 (StableHlo.after (opsB (F := F)) (StableHlo.after (opsA (F := F)) V))).trans ((B_arg10 (StableHlo.after (opsA (F := F)) V)).trans (A_arg10 V))
  generalize StableHlo.after (opsC1 (F := F)) (StableHlo.after (opsB (F := F)) (StableHlo.after (opsA (F := F)) V)) = UC at h48 h0 h7 h8 h9 h10 ⊢
  simp only [opsC2]
  after_results_simp
  drop_transports
  rw [h48, h0, h7, h8, h9, h10]
  rfl

theorem line_v58 : StableHlo.after (ops (F := F)) V (Proc.devRef .tc main_v58)
    = val_main_v58 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [ops_split, StableHlo.after_append, StableHlo.after_append, StableHlo.after_append]
  exact ABC_v58 V

theorem line_arg0 : StableHlo.after (ops (F := F)) V (Proc.devRef .tc main_arg0) = V (Proc.devRef .tc main_arg0) := by passes_through main_arg0
theorem line_arg1 : StableHlo.after (ops (F := F)) V (Proc.devRef .tc main_arg1) = V (Proc.devRef .tc main_arg1) := by passes_through main_arg1
theorem line_arg2 : StableHlo.after (ops (F := F)) V (Proc.devRef .tc main_arg2) = V (Proc.devRef .tc main_arg2) := by passes_through main_arg2
theorem line_arg3 : StableHlo.after (ops (F := F)) V (Proc.devRef .tc main_arg3) = V (Proc.devRef .tc main_arg3) := by passes_through main_arg3
theorem line_arg4 : StableHlo.after (ops (F := F)) V (Proc.devRef .tc main_arg4) = V (Proc.devRef .tc main_arg4) := by passes_through main_arg4
theorem line_arg5 : StableHlo.after (ops (F := F)) V (Proc.devRef .tc main_arg5) = V (Proc.devRef .tc main_arg5) := by passes_through main_arg5
theorem line_arg6 : StableHlo.after (ops (F := F)) V (Proc.devRef .tc main_arg6) = V (Proc.devRef .tc main_arg6) := by passes_through main_arg6
theorem line_arg7 : StableHlo.after (ops (F := F)) V (Proc.devRef .tc main_arg7) = V (Proc.devRef .tc main_arg7) := by passes_through main_arg7
theorem line_arg8 : StableHlo.after (ops (F := F)) V (Proc.devRef .tc main_arg8) = V (Proc.devRef .tc main_arg8) := by passes_through main_arg8
theorem line_arg9 : StableHlo.after (ops (F := F)) V (Proc.devRef .tc main_arg9) = V (Proc.devRef .tc main_arg9) := by passes_through main_arg9
theorem line_arg10 : StableHlo.after (ops (F := F)) V (Proc.devRef .tc main_arg10) = V (Proc.devRef .tc main_arg10) := by passes_through main_arg10

end Composed

/-! ## The run -/

/-- On every device, from any memory with zero counters: every weakly fair execution of the reference's @main
    terminates with the result array at the result stage function of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v58) = val_main_v58 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v58).trans (line_v58 _),
      (h c main_arg0).trans (line_arg0 _),
      (h c main_arg1).trans (line_arg1 _),
      (h c main_arg2).trans (line_arg2 _),
      (h c main_arg3).trans (line_arg3 _),
      (h c main_arg4).trans (line_arg4 _),
      (h c main_arg5).trans (line_arg5 _),
      (h c main_arg6).trans (line_arg6 _),
      (h c main_arg7).trans (line_arg7 _),
      (h c main_arg8).trans (line_arg8 _),
      (h c main_arg9).trans (line_arg9 _),
      (h c main_arg10).trans (line_arg10 _)⟩)
    (run_seq scopedRefs_eq scopedSems_eq defs main (fun _ => ops) main_eq (fun _ => ops_sub) m ρ
      (fun _ => List.forall_iff_forall_mem.mp ops_fresh))

end Cert.ReferenceIdeal.RefRun

end
-- ==== Proof.Spec.lean ====
/-
  The two dense stages of the layer as functions of ONE row, over the extended reals.

  An edge's message is  silu(W2^T . silu(W1^T . state + b1) + b2)  where  state = (x_send, x_rec, dist)  has
  128 + 128 + 1 entries, and a node's update is  W2^T . silu(W1^T . (x, aggr) + b1) + b2  where (x, aggr) has
  128 + 128 entries;  silu x = x . 1/(1 + e^(-x)).  One program multiplies the joined row by the whole first-layer
  table; the other multiplies each part by its own rows of the table and adds the partial products. The two agree
  because a sum over 257 (or 256) indices is the sum over its consecutive runs: associativity and commutativity
  of addition only, so it holds on the extended reals as it stands, infinities included.
-/
import Idealize.ShloMosaic.PureOps.Ideal
import Mathlib.Algebra.BigOperators.Fin

noncomputable section

open scoped BigOperators

namespace Egnn

open Idealize.ShloMosaic

/-- x . sigma(x) with sigma x = 1 / (1 + e^(-x)); at the infinities sigma of bottom is 0 and sigma of top is 1. -/
def silu (x : EReal) : EReal := x * Ideal.logistic x

/-! ## Sums over a joined index range -/

/-- A sum over 256 indices is the sum over the first 128 plus the sum over the last 128. -/
theorem sum_256 {M : Type*} [AddCommMonoid M] (f : Fin 256 → M) :
    ∑ j : Fin 256, f j = (∑ j : Fin 128, f ⟨j.val, by omega⟩) + ∑ j : Fin 128, f ⟨128 + j.val, by omega⟩ :=
  Fin.sum_univ_add (a := 128) (b := 128) f

/-- A sum over 257 indices is the sum over the first 128, plus the next 128, plus the last one. -/
theorem sum_257 {M : Type*} [AddCommMonoid M] (f : Fin 257 → M) :
    ∑ j : Fin 257, f j
      = ((∑ j : Fin 128, f ⟨j.val, by omega⟩) + ∑ j : Fin 128, f ⟨128 + j.val, by omega⟩) + f ⟨256, by omega⟩ := by
  rw [Fin.sum_univ_castSucc (n := 256) f, sum_256 fun j => f j.castSucc]
  rfl

/-! ## An edge's message -/

/-- The message of one edge from the parts of its state, each part against its own rows of the first table:
    xs, xr the two gathered feature rows, d the distance; w1s, w1r, w1d the table's three runs of rows. -/
def edgeRow (xs xr : Fin 128 → EReal) (d : EReal) (w1s w1r : Fin 128 → Fin 128 → EReal) (w1d b1 : Fin 128 → EReal)
    (w2 : Fin 128 → Fin 128 → EReal) (b2 : Fin 128 → EReal) (q : Fin 128) : EReal :=
  silu ((∑ k : Fin 128,
      silu ((((∑ j : Fin 128, xs j * w1s j k) + ∑ j : Fin 128, xr j * w1r j k) + d * w1d k) + b1 k) * w2 k q) + b2 q)

/-- The same from the joined state of 257 entries against the whole first table. -/
def edgeRowJoined (state : Fin 257 → EReal) (w1 : Fin 257 → Fin 128 → EReal) (b1 : Fin 128 → EReal)
    (w2 : Fin 128 → Fin 128 → EReal) (b2 : Fin 128 → EReal) (q : Fin 128) : EReal :=
  silu ((∑ k : Fin 128, silu ((∑ j : Fin 257, state j * w1 j k) + b1 k) * w2 k q) + b2 q)

/-- The joined form is the split form at the state's three runs and the table's three runs of rows. -/
theorem edgeRowJoined_eq (state : Fin 257 → EReal) (w1 : Fin 257 → Fin 128 → EReal) (b1 : Fin 128 → EReal)
    (w2 : Fin 128 → Fin 128 → EReal) (b2 : Fin 128 → EReal) (q : Fin 128) :
    edgeRowJoined state w1 b1 w2 b2 q
      = edgeRow (fun j => state ⟨j.val, by omega⟩) (fun j => state ⟨128 + j.val, by omega⟩) (state ⟨256, by omega⟩)
          (fun j k => w1 ⟨j.val, by omega⟩ k) (fun j k => w1 ⟨128 + j.val, by omega⟩ k) (fun k => w1 ⟨256, by omega⟩ k)
          b1 w2 b2 q := by
  unfold edgeRowJoined edgeRow
  simp only [sum_257]

/-! ## A node's update -/

/-- The update of one node from its own features x and its aggregated messages a, each against its own rows of
    the first table. -/
def nodeRow (x a : Fin 128 → EReal) (w1a w1b : Fin 128 → Fin 128 → EReal) (b1 : Fin 128 → EReal)
    (w2 : Fin 128 → Fin 128 → EReal) (b2 : Fin 128 → EReal) (q : Fin 128) : EReal :=
  (∑ k : Fin 128, silu (((∑ j : Fin 128, x j * w1a j k) + ∑ j : Fin 128, a j * w1b j k) + b1 k) * w2 k q) + b2 q

/-- The same from the joined row of 256 entries against the whole first table. -/
def nodeRowJoined (xa : Fin 256 → EReal) (w1 : Fin 256 → Fin 128 → EReal) (b1 : Fin 128 → EReal)
    (w2 : Fin 128 → Fin 128 → EReal) (b2 : Fin 128 → EReal) (q : Fin 128) : EReal :=
  (∑ k : Fin 128, silu ((∑ j : Fin 256, xa j * w1 j k) + b1 k) * w2 k q) + b2 q

/-- The joined form is the split form at the row's two halves and the table's two runs of rows. -/
theorem nodeRowJoined_eq (xa : Fin 256 → EReal) (w1 : Fin 256 → Fin 128 → EReal) (b1 : Fin 128 → EReal)
    (w2 : Fin 128 → Fin 128 → EReal) (b2 : Fin 128 → EReal) (q : Fin 128) :
    nodeRowJoined xa w1 b1 w2 b2 q
      = nodeRow (fun j => xa ⟨j.val, by omega⟩) (fun j => xa ⟨128 + j.val, by omega⟩)
          (fun j k => w1 ⟨j.val, by omega⟩ k) (fun j k => w1 ⟨128 + j.val, by omega⟩ k) b1 w2 b2 q := by
  unfold nodeRowJoined nodeRow
  simp only [sum_256]

end Egnn

end
-- ==== Proof.Arrays.lean ====
/-
  The two dense stages as whole-array functions, index by index, over the arrays' literal shapes.

  edgeOut is the message array [640000, 128]: row e is the edge stage (Spec.lean's edgeRow) of row e of the two
  gathered feature arrays, entry (e, 0) of the distance column, and the weight tables read by coordinates.
  nodeOut is the update array [50000, 128]: row n is the node stage (nodeRow) of row n of the node features and of
  the aggregated messages. Biases are stored as one row [1, 128].
-/
import proofs.«403448_j36335423324795_1_alg».proof.Proof.Spec
import Idealize.ShloMosaic.Lib.ValueIdx

noncomputable section

namespace Egnn

open Idealize.ShloMosaic Idealize.ShloMosaic.ValueIdx

abbrev SEdges : Shape := ⟨2, ![640000, 128]⟩
abbrev SEdgeCol : Shape := ⟨2, ![640000, 1]⟩
abbrev SNodes : Shape := ⟨2, ![50000, 128]⟩
abbrev SSquare : Shape := ⟨2, ![128, 128]⟩
abbrev SRow : Shape := ⟨2, ![1, 128]⟩
abbrev STable257 : Shape := ⟨2, ![257, 128]⟩
abbrev STable256 : Shape := ⟨2, ![256, 128]⟩
abbrev SVec : Shape := ⟨1, ![128]⟩

/-- 128 consecutive rows of a table of 257 rows, from row off on. -/
def rowsOf257 (off : Nat) (h : off + 128 ≤ 257) (w : STable257.Idx → EReal) : SSquare.Idx → EReal :=
  fun i => w (ix2 ⟨off + (i 0).val, by have := (i 0).isLt; change (i 0).val < 128 at this; omega⟩ (i 1))

/-- The last row of a table of 257 rows, as one row. -/
def lastRowOf257 (w : STable257.Idx → EReal) : SRow.Idx → EReal :=
  fun i => w (ix2 ⟨256, by omega⟩ (i 1))

/-- 128 consecutive rows of a table of 256 rows, from row off on. -/
def rowsOf256 (off : Nat) (h : off + 128 ≤ 256) (w : STable256.Idx → EReal) : SSquare.Idx → EReal :=
  fun i => w (ix2 ⟨off + (i 0).val, by have := (i 0).isLt; change (i 0).val < 128 at this; omega⟩ (i 1))

/-- A vector of 128 entries as one row [1, 128]. -/
def asRow (b : SVec.Idx → EReal) : SRow.Idx → EReal := fun i => b (ix1 (i 1))

/-- The message array: entry (e, q) is the edge stage of edge e's gathered rows and distance. -/
def edgeOut (xs xr : SEdges.Idx → EReal) (d : SEdgeCol.Idx → EReal) (w1s w1r : SSquare.Idx → EReal)
    (w1d b1 : SRow.Idx → EReal) (w2 : SSquare.Idx → EReal) (b2 : SRow.Idx → EReal) : SEdges.Idx → EReal :=
  fun i => edgeRow (fun j => xs (ix2 (i 0) j)) (fun j => xr (ix2 (i 0) j)) (d (ix2 (i 0) (0 : Fin 1)))
    (fun j k => w1s (ix2 j k)) (fun j k => w1r (ix2 j k)) (fun k => w1d (ix2 (0 : Fin 1) k)) (fun k => b1 (ix2 (0 : Fin 1) k))
    (fun k q => w2 (ix2 k q)) (fun q => b2 (ix2 (0 : Fin 1) q)) (i 1)

/-- The update array: entry (n, q) is the node stage of node n's features and aggregated messages. -/
def nodeOut (x a : SNodes.Idx → EReal) (w1a w1b : SSquare.Idx → EReal) (b1 : SRow.Idx → EReal)
    (w2 : SSquare.Idx → EReal) (b2 : SRow.Idx → EReal) : SNodes.Idx → EReal :=
  fun i => nodeRow (fun j => x (ix2 (i 0) j)) (fun j => a (ix2 (i 0) j))
    (fun j k => w1a (ix2 j k)) (fun j k => w1b (ix2 j k)) (fun k => b1 (ix2 (0 : Fin 1) k))
    (fun k q => w2 (ix2 k q)) (fun q => b2 (ix2 (0 : Fin 1) q)) (i 1)

end Egnn

end
-- ==== Proof.EdgeRegion.lean ====
/-
  The first pallas_call (the edge stage) as a whole-array function.

  Its grid has 160 points; point t stages rows 4000 t .. 4000 t + 3999 of the two gathered feature arrays and of the
  distance column, the six weight and bias blocks whole, and writes back rows 4000 t .. 4000 t + 3999 of the message
  array. The 160 row blocks tile the 640000 rows, so after the call the message array is, index by index, the edge
  stage of the arrays the call found.
-/
import proofs.«403448_j36335423324795_1_alg».proof.Proof.Gen.KernelIdeal.Frame
import proofs.«403448_j36335423324795_1_alg».proof.Proof.Arrays
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeRegion

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

open scoped BigOperators

/-! ## The kernel's matrix product at an index

The product contracts axis 1 of its left operand with axis 0 of its right operand, so entry (p, q) of the result is
the sum over k of left (p, k) times right (k, q). -/

theorem prod_lhs_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem prod_lhs_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem prod_rhs_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem prod_rhs_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- Entry (p, q) of the product into a zero accumulator is the sum over k of A (p, k) * B (k, q). -/
theorem prod_apply {φ₁ φ₂ : FTy} (A : FVec Ideal S4000x128 φ₁) (B : FVec Ideal S128x128 φ₂) (p : Fin 4000) (q : Fin 128) :
    matmul dot_S4000x128_S128x128_S4000x128_1_0_0_1_n_n none A B (constant (F := Ideal) S4000x128 .f32 0x00000000#32) (ix2 p q)
      = ∑ k : Fin 128, A (ix2 p k) * B (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact prod_lhs_0 _ _
    | ⟨1, _⟩ => exact (prod_lhs_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (prod_rhs_0 _ _).trans hk
    | ⟨1, _⟩ => exact prod_rhs_1 _ _)
  rw [el, er]

/-! ## The body's other operations at an index -/

/-- The logistic of a vector at an index is the logistic of the entry. -/
theorem logistic_apply {s : Shape} {φ : FTy} (v : FVec Ideal s φ) (i : s.Idx) : logistic v i = Ideal.logistic (v i) := rfl

/-- A column [a, 1] broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's payload at an index -/

/-- Entry (p, q) of what the body stores is the edge stage of row p of the two feature blocks, entry (p, 0) of the
    distance block, and the six weight and bias blocks. -/
theorem edge_payload_apply (x0 x1 : Vec Ideal S4000x128 .f32) (x2 : Vec Ideal S4000x1 .f32)
    (x3 x4 x7 : Vec Ideal S128x128 .f32) (x5 x6 x8 : Vec Ideal S1x128 .f32) (p : Fin 4000) (q : Fin 128) :
    k0_pay1 (k0_pay2 x0 x1 x3 x4 x2 x5 x6 x7) (k0_pay3 x8) (ix2 p q)
      = Egnn.edgeRow (fun j => x0 (ix2 p j)) (fun j => x1 (ix2 p j)) (x2 (ix2 p (0 : Fin 1)))
          (fun j k => x3 (ix2 j k)) (fun j k => x4 (ix2 j k)) (fun k => x5 (ix2 (0 : Fin 1) k)) (fun k => x6 (ix2 (0 : Fin 1) k))
          (fun k q => x7 (ix2 k q)) (fun q => x8 (ix2 (0 : Fin 1) q)) q := by
  unfold k0_pay1 k0_pay2 k0_pay3 Egnn.edgeRow Egnn.silu
  simp only [shapeCast_self]
  simp only [mulf_apply, addf_apply, logistic_apply, prod_apply, truncf_apply, broadcastTo_1b_ab_apply, broadcastTo_a1_ab_apply]

/-! ## From the blocks to the array -/

theorem zero_offsets : (![0, 0] : Fin 2 → Nat) = fun _ => 0 := funext fun a => by fin_cases a <;> rfl

/-- The grid has 160 points. -/
theorem point_lt (t : Fin cfg0.N) : t.val < 160 := Nat.lt_of_lt_of_eq t.isLt N_0

/-- The block indices, decided over the grid: at point t the two feature arrays, the distance column and the
    message array are at row block t, column block 0; the six weight and bias arrays at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Row p of the block at point t is row 4000 t + p of the array. -/
def row (t : Fin cfg0.N) (p : Fin 4000) : Fin 640000 := ⟨4000 * t.val + p.val, by have := point_lt t; have := p.isLt; omega⟩

/-! ### Each input block, read at an index, is its array read at the index under the block -/

theorem read_xs (c : Dev nD) (t : Fin cfg0.N) (p : Fin 4000) (j : Fin 128) :
    iblk0 V c 0 t (ix2 p j) = V c main_v4 (ix2 (row t p) j) := by
  obtain ⟨e0, e1, -⟩ := block_indices t
  show V c main_v4 (((cfg0.win 0).blk t).view.emb (ix2 p j)) = V c main_v4 (ix2 (row t p) j)
  refine congrArg _ (funext fun a => Fin.ext ?_)
  match a with
  | ⟨0, _⟩ => show win0_0.index t (0 : Fin 2) * 4000 + 1 * p.val = 4000 * t.val + p.val; omega
  | ⟨1, _⟩ => show win0_0.index t (1 : Fin 2) * 128 + 1 * j.val = j.val; omega

theorem read_xr (c : Dev nD) (t : Fin cfg0.N) (p : Fin 4000) (j : Fin 128) :
    iblk0 V c 1 t (ix2 p j) = V c main_v5 (ix2 (row t p) j) := by
  obtain ⟨-, -, e0, e1, -⟩ := block_indices t
  show V c main_v5 (((cfg0.win 1).blk t).view.emb (ix2 p j)) = V c main_v5 (ix2 (row t p) j)
  refine congrArg _ (funext fun a => Fin.ext ?_)
  match a with
  | ⟨0, _⟩ => show win0_1.index t (0 : Fin 2) * 4000 + 1 * p.val = 4000 * t.val + p.val; omega
  | ⟨1, _⟩ => show win0_1.index t (1 : Fin 2) * 128 + 1 * j.val = j.val; omega

theorem read_d (c : Dev nD) (t : Fin cfg0.N) (p : Fin 4000) :
    iblk0 V c 2 t (ix2 p (0 : Fin 1)) = V c main_v10 (ix2 (row t p) (0 : Fin 1)) := by
  obtain ⟨-, -, -, -, e0, e1, -⟩ := block_indices t
  show V c main_v10 (((cfg0.win 2).blk t).view.emb (ix2 p (0 : Fin 1))) = V c main_v10 (ix2 (row t p) (0 : Fin 1))
  refine congrArg _ (funext fun a => Fin.ext ?_)
  match a with
  | ⟨0, _⟩ => show win0_2.index t (0 : Fin 2) * 4000 + 1 * p.val = 4000 * t.val + p.val; omega
  | ⟨1, _⟩ => show win0_2.index t (1 : Fin 2) * 1 + 1 * 0 = 0; omega

theorem read_w1s (c : Dev nD) (t : Fin cfg0.N) (j k : Fin 128) :
    iblk0 V c 3 t (ix2 j k) = V c main_v11 (ix2 j k) := by
  obtain ⟨-, -, -, -, -, -, e0, e1, -⟩ := block_indices t
  show V c main_v11 (((cfg0.win 3).blk t).view.emb (ix2 j k)) = V c main_v11 (ix2 j k)
  refine congrArg _ (funext fun a => Fin.ext ?_)
  match a with
  | ⟨0, _⟩ => show win0_3.index t (0 : Fin 2) * 128 + 1 * j.val = j.val; omega
  | ⟨1, _⟩ => show win0_3.index t (1 : Fin 2) * 128 + 1 * k.val = k.val; omega

theorem read_w1r (c : Dev nD) (t : Fin cfg0.N) (j k : Fin 128) :
    iblk0 V c 4 t (ix2 j k) = V c main_v12 (ix2 j k) := by
  obtain ⟨-, -, -, -, -, -, -, -, e0, e1, -⟩ := block_indices t
  show V c main_v12 (((cfg0.win 4).blk t).view.emb (ix2 j k)) = V c main_v12 (ix2 j k)
  refine congrArg _ (funext fun a => Fin.ext ?_)
  match a with
  | ⟨0, _⟩ => show win0_4.index t (0 : Fin 2) * 128 + 1 * j.val = j.val; omega
  | ⟨1, _⟩ => show win0_4.index t (1 : Fin 2) * 128 + 1 * k.val = k.val; omega

theorem read_w1d (c : Dev nD) (t : Fin cfg0.N) (k : Fin 128) :
    iblk0 V c 5 t (ix2 (0 : Fin 1) k) = V c main_v13 (ix2 (0 : Fin 1) k) := by
  obtain ⟨-, -, -, -, -, -, -, -, -, -, e0, e1, -⟩ := block_indices t
  show V c main_v13 (((cfg0.win 5).blk t).view.emb (ix2 (0 : Fin 1) k)) = V c main_v13 (ix2 (0 : Fin 1) k)
  refine congrArg _ (funext fun a => Fin.ext ?_)
  match a with
  | ⟨0, _⟩ => show win0_5.index t (0 : Fin 2) * 1 + 1 * 0 = 0; omega
  | ⟨1, _⟩ => show win0_5.index t (1 : Fin 2) * 128 + 1 * k.val = k.val; omega

theorem read_b1 (c : Dev nD) (t : Fin cfg0.N) (k : Fin 128) :
    iblk0 V c 6 t (ix2 (0 : Fin 1) k) = V c main_v14 (ix2 (0 : Fin 1) k) := by
  obtain ⟨-, -, -, -, -, -, -, -, -, -, -, -, e0, e1, -⟩ := block_indices t
  show V c main_v14 (((cfg0.win 6).blk t).view.emb (ix2 (0 : Fin 1) k)) = V c main_v14 (ix2 (0 : Fin 1) k)
  refine congrArg _ (funext fun a => Fin.ext ?_)
  match a with
  | ⟨0, _⟩ => show win0_6.index t (0 : Fin 2) * 1 + 1 * 0 = 0; omega
  | ⟨1, _⟩ => show win0_6.index t (1 : Fin 2) * 128 + 1 * k.val = k.val; omega

theorem read_w2 (c : Dev nD) (t : Fin cfg0.N) (j k : Fin 128) :
    iblk0 V c 7 t (ix2 j k) = V c main_arg5 (ix2 j k) := by
  obtain ⟨-, -, -, -, -, -, -, -, -, -, -, -, -, -, e0, e1, -⟩ := block_indices t
  show V c main_arg5 (((cfg0.win 7).blk t).view.emb (ix2 j k)) = V c main_arg5 (ix2 j k)
  refine congrArg _ (funext fun a => Fin.ext ?_)
  match a with
  | ⟨0, _⟩ => show win0_7.index t (0 : Fin 2) * 128 + 1 * j.val = j.val; omega
  | ⟨1, _⟩ => show win0_7.index t (1 : Fin 2) * 128 + 1 * k.val = k.val; omega

theorem read_b2 (c : Dev nD) (t : Fin cfg0.N) (k : Fin 128) :
    iblk0 V c 8 t (ix2 (0 : Fin 1) k) = V c main_v15 (ix2 (0 : Fin 1) k) := by
  obtain ⟨-, -, -, -, -, -, -, -, -, -, -, -, -, -, -, -, e0, e1, -⟩ := block_indices t
  show V c main_v15 (((cfg0.win 8).blk t).view.emb (ix2 (0 : Fin 1) k)) = V c main_v15 (ix2 (0 : Fin 1) k)
  refine congrArg _ (funext fun a => Fin.ext ?_)
  match a with
  | ⟨0, _⟩ => show win0_8.index t (0 : Fin 2) * 1 + 1 * 0 = 0; omega
  | ⟨1, _⟩ => show win0_8.index t (1 : Fin 2) * 128 + 1 * k.val = k.val; omega

/-- Entry (p, q) of the output block at point t sits at (4000 t + p, q) of the message array. -/
theorem out_index (t : Fin cfg0.N) (p : Fin 4000) (q : Fin 128) :
    ((cfg0.win 9).blk t).view.emb (ix2 p q) = (ix2 (row t p) q : S640000x128.Idx) := by
  obtain ⟨-, -, -, -, -, -, -, -, -, -, -, -, -, -, -, -, -, -, e0, e1⟩ := block_indices t
  refine funext fun a => Fin.ext ?_
  match a with
  | ⟨0, _⟩ => show win0_9.index t (0 : Fin 2) * 4000 + 1 * p.val = 4000 * t.val + p.val; omega
  | ⟨1, _⟩ => show win0_9.index t (1 : Fin 2) * 128 + 1 * q.val = q.val; omega

/-- What point t writes back is block t of the edge stage of the arrays the call found. -/
theorem writeback_eq (c : Dev nD) (t : Fin cfg0.N) :
    (dat0 (F := Ideal) V c).flushed 9 t = ((cfg0.win 9).blk t).view.read (Elt Ideal)
      (Egnn.edgeOut (V c main_v4) (V c main_v5) (V c main_v10) (V c main_v11) (V c main_v12) (V c main_v13)
          (V c main_v14) (V c main_arg5) (V c main_v15)) := by
  show (cfg0.win 9).cut (grid0.coords t) ((dat0 V c).after 9 t) = _
  rw [after0_9]
  unfold out0_9
  rw [View.canon_unit_zero zero_offsets]
  simp only [View.ld_unit_zero (S := S4000x128) zero_offsets, View.ld_unit_zero (S := S128x128) zero_offsets,
    View.ld_unit_zero (S := S4000x1) zero_offsets, View.ld_unit_zero (S := S1x128) zero_offsets]
  funext j
  obtain ⟨p, q, rfl⟩ : ∃ (p : Fin 4000) (q : Fin 128), j = ix2 p q := ⟨j 0, j 1, eq_ix2 j⟩
  refine (edge_payload_apply (iblk0 V c 0 t) (iblk0 V c 1 t) (iblk0 V c 2 t) (iblk0 V c 3 t) (iblk0 V c 4 t)
    (iblk0 V c 7 t) (iblk0 V c 5 t) (iblk0 V c 6 t) (iblk0 V c 8 t) p q).trans ?_
  rw [View.read_apply, out_index]
  simp only [read_xs, read_xr, read_d, read_w1s, read_w1r, read_w1d, read_b1, read_w2, read_b2]
  rfl

/-- An index of the message array is in point t's block iff each coordinate is in the block's range on its axis. -/
theorem mem_block (t : Fin cfg0.N) (i : S640000x128.Idx) :
    i ∈ ((cfg0.win 9).blk t).view.set ↔ ∀ a : Fin 2, win0_9.index t a * S4000x128.size a ≤ (i a).val ∧ (i a).val < win0_9.index t a * S4000x128.size a + S4000x128.size a := by
  show i ∈ ((View.whole main_v16).slice (win0_9.rect t)).set ↔ _
  rw [View.set_slice_whole, Rect.mem_set_unit]
  exact Iff.rfl

/-- The 160 row blocks tile the 640000 rows: row r is in the block of point r / 4000. -/
theorem covered (i : S640000x128.Idx) :
    ∃ t : Fin cfg0.N, (cfg0.win 9).flush t = true ∧ i ∈ ((cfg0.win 9).blk t).view.set := by
  have hi0 : (i 0).val < 640000 := (i 0).isLt
  have hi1 : (i 1).val < 128 := (i 1).isLt
  have hN : (i 0).val / 4000 < cfg0.N := by rw [show cfg0.N = 160 from N_0]; omega
  obtain ⟨-, -, -, -, -, -, -, -, -, -, -, -, -, -, -, -, -, -, e0, e1⟩ := block_indices ⟨(i 0).val / 4000, hN⟩
  refine ⟨⟨(i 0).val / 4000, hN⟩, flush0_9 _, ?_⟩
  rw [mem_block]
  intro a
  match a with
  | ⟨0, _⟩ =>
    show win0_9.index ⟨(i 0).val / 4000, hN⟩ (0 : Fin 2) * 4000 ≤ (i 0).val ∧ (i 0).val < win0_9.index ⟨(i 0).val / 4000, hN⟩ (0 : Fin 2) * 4000 + 4000
    rw [e0]
    show (i 0).val / 4000 * 4000 ≤ (i 0).val ∧ (i 0).val < (i 0).val / 4000 * 4000 + 4000
    omega
  | ⟨1, _⟩ =>
    show win0_9.index ⟨(i 0).val / 4000, hN⟩ (1 : Fin 2) * 128 ≤ (i 1).val ∧ (i 1).val < win0_9.index ⟨(i 0).val / 4000, hN⟩ (1 : Fin 2) * 128 + 128
    rw [e1]
    omega

/-- After the first call, its output array is the edge stage of the arrays it found. -/
theorem edge_final (c : Dev nD) :
    (dat0 (F := Ideal) V c).arrAt 9 cfg0.N
      = Egnn.edgeOut (V c main_v4) (V c main_v5) (V c main_v10) (V c main_v11) (V c main_v12) (V c main_v13)
          (V c main_v14) (V c main_arg5) (V c main_v15) :=
  (dat0 (F := Ideal) V c).arrAt_eq_of_cover 9 _ (fun t _ => writeback_eq V c t) covered

end Cert.KernelIdeal.EdgeRegion

end
-- ==== Proof.NodeRegion.lean ====
/-
  The second pallas_call (the node stage) as a whole-array function.

  Its grid has 10 points; point t stages rows 5000 t .. 5000 t + 4999 of the node features and of the aggregated
  messages, the five weight and bias blocks whole, and writes back rows 5000 t .. 5000 t + 4999 of the update array.
  The 10 row blocks tile the 50000 rows, so after the call the update array is, index by index, the node stage of the
  arrays the call found.
-/
import proofs.«403448_j36335423324795_1_alg».proof.Proof.Gen.KernelIdeal.Frame
import proofs.«403448_j36335423324795_1_alg».proof.Proof.Arrays
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeRegion

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

open scoped BigOperators

/-! ## The node stage's products, read at one entry

Each of the three products of the node stage multiplies a block of 5000 rows of 128 entries by a table of 128 rows of
128 entries into a zero accumulator: at the extended reals its entry (p, q) is the sum over k of row p's entry k times
the table's entry (k, q). -/

/-- The left operand's index at result index i and contraction index k keeps i's row ... -/
theorem lhs_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- ... and takes its column from k; -/
theorem lhs_col (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
/-- the right operand's takes its row from k ... -/
theorem rhs_row (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
/-- ... and keeps i's column. -/
theorem rhs_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block times a table into the zero accumulator, at entry (p, q): the sum over k of a(p, k) b(k, q). -/
theorem product_apply {φ₁ φ₂ : FTy} (a : FVec Ideal S5000x128 φ₁) (b : FVec Ideal S128x128 φ₂) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun ax => Fin.ext (by
    match ax with
    | ⟨0, _⟩ => exact lhs_row _ _
    | ⟨1, _⟩ => exact (lhs_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun ax => Fin.ext (by
    match ax with
    | ⟨0, _⟩ => exact (rhs_row _ _).trans hk
    | ⟨1, _⟩ => exact rhs_col _ _)
  rw [el, er]

/-! ## The body's arithmetic at one entry -/

/-- The logistic of a block at an entry is the logistic function of the entry. -/
theorem logistic_at {s : Shape} {φ : FTy} (v : FVec Ideal s φ) (i : s.Idx) : logistic v i = Ideal.logistic (v i) := rfl

/-- Entry (p, q) of what the body stores is the node stage of row p of the two row blocks against the tables. -/
theorem payload_apply (x0 x1 : Vec Ideal S5000x128 .f32) (x2 x3 : Vec Ideal S128x128 .f32) (x4 : Vec Ideal S1x128 .f32)
    (x5 : Vec Ideal S128x128 .f32) (x6 : Vec Ideal S1x128 .f32) (p : Fin 5000) (q : Fin 128) :
    k1_pay1 (F := Ideal) x0 x1 x2 x3 x4 x5 x6 (ix2 p q)
      = Egnn.nodeRow (fun j => x0 (ix2 p j)) (fun j => x1 (ix2 p j)) (fun j k => x2 (ix2 j k)) (fun j k => x3 (ix2 j k))
          (fun k => x4 (ix2 (0 : Fin 1) k)) (fun k q => x5 (ix2 k q)) (fun q => x6 (ix2 (0 : Fin 1) q)) q := by
  unfold k1_pay1 Egnn.nodeRow Egnn.silu
  simp only [shapeCast_self]
  rw [addf_apply, product_apply, broadcastTo_1b_ab_apply]
  refine congrArg (· + _) (Finset.sum_congr rfl fun k _ => ?_)
  rw [truncf_apply, truncf_apply, mulf_apply, logistic_at, addf_apply, addf_apply, product_apply, product_apply,
    broadcastTo_1b_ab_apply]
  simp only [truncf_apply]

/-! ## From the row blocks to the array

Point t of the grid stages rows 5000 t .. 5000 t + 4999 of the node features and of the aggregated messages, the five
tables whole, and writes rows 5000 t .. 5000 t + 4999 of the update array. -/

theorem zero_offsets : (![0, 0] : Fin 2 → Nat) = fun _ => 0 := funext fun a => by fin_cases a <;> rfl

/-- The block indices over the grid: the three row-block windows are at block (t, 0), the five tables at block (0, 0). -/
theorem block_indices : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

/-- Row p of point t's block of the node features is row 5000 t + p of the array. -/
theorem features_block (c : Dev nD) (t : Fin cfg1.N) (y : S5000x128.Idx) (i : S50000x128.Idx)
    (h0 : (i 0).val = t.val * 5000 + (y 0).val) (h1 : (i 1).val = (y 1).val) :
    iblk1 V c 0 t y = V c main_arg0 i := by
  show V c main_arg0 (((cfg1.win 0).blk t).view.emb y) = V c main_arg0 i
  obtain ⟨⟨e0, e1⟩, -⟩ := block_indices t
  congr 1
  funext a
  apply Fin.ext
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- Row p of point t's block of the aggregated messages is row 5000 t + p of the array. -/
theorem messages_block (c : Dev nD) (t : Fin cfg1.N) (y : S5000x128.Idx) (i : S50000x128.Idx)
    (h0 : (i 0).val = t.val * 5000 + (y 0).val) (h1 : (i 1).val = (y 1).val) :
    iblk1 V c 1 t y = V c main_v19 i := by
  show V c main_v19 (((cfg1.win 1).blk t).view.emb y) = V c main_v19 i
  obtain ⟨-, ⟨e0, e1⟩, -⟩ := block_indices t
  congr 1
  funext a
  apply Fin.ext
  match a with
  | ⟨0, _⟩ => show win1_1.index t (0 : Fin 2) * 5000 + 1 * (y 0).val = (i 0).val; omega
  | ⟨1, _⟩ => show win1_1.index t (1 : Fin 2) * 128 + 1 * (y 1).val = (i 1).val; omega

/-- The first table's upper half is staged whole at every point. -/
theorem table1a_block (c : Dev nD) (t : Fin cfg1.N) (y : S128x128.Idx) : iblk1 V c 2 t y = V c main_v20 y := by
  show V c main_v20 (((cfg1.win 2).blk t).view.emb y) = V c main_v20 y
  obtain ⟨-, -, ⟨e0, e1⟩, -⟩ := block_indices t
  congr 1
  funext a
  apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The first table's lower half is staged whole at every point. -/
theorem table1b_block (c : Dev nD) (t : Fin cfg1.N) (y : S128x128.Idx) : iblk1 V c 3 t y = V c main_v21 y := by
  show V c main_v21 (((cfg1.win 3).blk t).view.emb y) = V c main_v21 y
  obtain ⟨-, -, -, ⟨e0, e1⟩, -⟩ := block_indices t
  congr 1
  funext a
  apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The first bias row is staged whole at every point. -/
theorem bias1_block (c : Dev nD) (t : Fin cfg1.N) (y : S1x128.Idx) : iblk1 V c 4 t y = V c main_v22 y := by
  show V c main_v22 (((cfg1.win 4).blk t).view.emb y) = V c main_v22 y
  obtain ⟨-, -, -, -, ⟨e0, e1⟩, -⟩ := block_indices t
  congr 1
  funext a
  apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The second table is staged whole at every point. -/
theorem table2_block (c : Dev nD) (t : Fin cfg1.N) (y : S128x128.Idx) : iblk1 V c 5 t y = V c main_arg9 y := by
  show V c main_arg9 (((cfg1.win 5).blk t).view.emb y) = V c main_arg9 y
  obtain ⟨-, -, -, -, -, ⟨e0, e1⟩, -⟩ := block_indices t
  congr 1
  funext a
  apply Fin.ext
  match a with
  | ⟨0, _⟩ => show win1_5.index t (0 : Fin 2) * 128 + 1 * (y 0).val = (y 0).val; omega
  | ⟨1, _⟩ => show win1_5.index t (1 : Fin 2) * 128 + 1 * (y 1).val = (y 1).val; omega

/-- The second bias row is staged whole at every point. -/
theorem bias2_block (c : Dev nD) (t : Fin cfg1.N) (y : S1x128.Idx) : iblk1 V c 6 t y = V c main_v23 y := by
  show V c main_v23 (((cfg1.win 6).blk t).view.emb y) = V c main_v23 y
  obtain ⟨-, -, -, -, -, -, ⟨e0, e1⟩, -⟩ := block_indices t
  congr 1
  funext a
  apply Fin.ext
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- The node stage of one row depends on its seven arguments entry by entry. -/
theorem nodeRow_congr {x x' a a' : Fin 128 → EReal} {w1a w1a' w1b w1b' : Fin 128 → Fin 128 → EReal} {b1 b1' : Fin 128 → EReal}
    {w2 w2' : Fin 128 → Fin 128 → EReal} {b2 b2' : Fin 128 → EReal} {q q' : Fin 128}
    (hx : ∀ j, x j = x' j) (ha : ∀ j, a j = a' j) (hw1a : ∀ j k, w1a j k = w1a' j k) (hw1b : ∀ j k, w1b j k = w1b' j k)
    (hb1 : ∀ k, b1 k = b1' k) (hw2 : ∀ k r, w2 k r = w2' k r) (hb2 : ∀ r, b2 r = b2' r) (hq : q = q') :
    Egnn.nodeRow x a w1a w1b b1 w2 b2 q = Egnn.nodeRow x' a' w1a' w1b' b1' w2' b2' q' := by
  obtain rfl : x = x' := funext hx
  obtain rfl : a = a' := funext ha
  obtain rfl : w1a = w1a' := funext fun j => funext (hw1a j)
  obtain rfl : w1b = w1b' := funext fun j => funext (hw1b j)
  obtain rfl : b1 = b1' := funext hb1
  obtain rfl : w2 = w2' := funext fun k => funext (hw2 k)
  obtain rfl : b2 = b2' := funext hb2
  rw [hq]

/-- Entry (p, q) of what point t stores is entry (5000 t + p, q) of the node stage of the arrays. -/
theorem stored_entry (c : Dev nD) (t : Fin cfg1.N) (p : Fin 5000) (q : Fin 128) (i : S50000x128.Idx)
    (h0 : (i 0).val = t.val * 5000 + p.val) (h1 : (i 1).val = q.val) :
    k1_pay1 (F := Ideal) (iblk1 V c 0 t) (iblk1 V c 1 t) (iblk1 V c 2 t) (iblk1 V c 3 t) (iblk1 V c 4 t) (iblk1 V c 5 t)
        (iblk1 V c 6 t) (ix2 p q)
      = Egnn.nodeOut (V c main_arg0) (V c main_v19) (V c main_v20) (V c main_v21) (V c main_v22) (V c main_arg9)
          (V c main_v23) i := by
  refine (payload_apply _ _ _ _ _ _ _ p q).trans ?_
  unfold Egnn.nodeOut
  exact nodeRow_congr (fun j => features_block V c t (ix2 p j) (ix2 (i 0) j) h0 rfl)
    (fun j => messages_block V c t (ix2 p j) (ix2 (i 0) j) h0 rfl)
    (fun j k => table1a_block V c t (ix2 j k)) (fun j k => table1b_block V c t (ix2 j k))
    (fun k => bias1_block V c t (ix2 (0 : Fin 1) k)) (fun k r => table2_block V c t (ix2 k r))
    (fun r => bias2_block V c t (ix2 (0 : Fin 1) r)) (Fin.ext h1.symm)

/-- What point t writes back is its block of rows of the node stage of the arrays the call found. -/
theorem flushed_eq (c : Dev nD) (t : Fin cfg1.N) :
    (dat1 (F := Ideal) V c).flushed 7 t
      = ((cfg1.win 7).blk t).view.read (Elt Ideal)
          (Egnn.nodeOut (V c main_arg0) (V c main_v19) (V c main_v20) (V c main_v21) (V c main_v22) (V c main_arg9)
            (V c main_v23)) := by
  show (cfg1.win 7).cut (grid1.coords t) ((dat1 V c).after 7 t) = _
  rw [after1_7]
  unfold out1_7
  rw [View.canon_unit_zero zero_offsets]
  simp only [View.ld_unit_zero (S := S5000x128) zero_offsets, View.ld_unit_zero (S := S128x128) zero_offsets,
    View.ld_unit_zero (S := S1x128) zero_offsets]
  funext j
  obtain ⟨p, q, rfl⟩ : ∃ (p : Fin 5000) (q : Fin 128), j = ix2 p q := ⟨j 0, j 1, eq_ix2 j⟩
  obtain ⟨-, -, -, -, -, -, -, e0, e1⟩ := block_indices t
  exact stored_entry V c t p q _
    (by show win1_7.index t (0 : Fin 2) * 5000 + 1 * p.val = _; omega)
    (by show win1_7.index t (1 : Fin 2) * 128 + 1 * q.val = _; omega)

/-- An index of the update array is in point t's block iff each coordinate is in the block's range on its axis. -/
theorem mem_rows (t : Fin cfg1.N) (i : S50000x128.Idx) :
    i ∈ ((cfg1.win 7).blk t).view.set
      ↔ ∀ a : Fin 2, win1_7.index t a * S5000x128.size a ≤ (i a).val
          ∧ (i a).val < win1_7.index t a * S5000x128.size a + S5000x128.size a := by
  show i ∈ ((View.whole main_v24).slice (win1_7.rect t)).set ↔ _
  rw [View.set_slice_whole, Rect.mem_set_unit]
  exact Iff.rfl

/-- The ten row blocks tile the 50000 rows: row r is in the block of point r / 5000. -/
theorem rows_cover (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  refine ⟨t, flush1_7 t, ?_⟩
  rw [mem_rows]
  obtain ⟨-, -, -, -, -, -, -, e0, e1⟩ := block_indices t
  intro a
  match a with
  | ⟨0, _⟩ =>
    show win1_7.index t (0 : Fin 2) * 5000 ≤ (i 0).val ∧ (i 0).val < win1_7.index t (0 : Fin 2) * 5000 + 5000
    omega
  | ⟨1, _⟩ =>
    show win1_7.index t (1 : Fin 2) * 128 ≤ (i 1).val ∧ (i 1).val < win1_7.index t (1 : Fin 2) * 128 + 128
    omega

/-- After the second call, its output array is the node stage of the arrays it found. -/
theorem node_final (c : Dev nD) :
    (dat1 (F := Ideal) V c).arrAt 7 cfg1.N
      = Egnn.nodeOut (V c main_arg0) (V c main_v19) (V c main_v20) (V c main_v21) (V c main_v22) (V c main_arg9)
          (V c main_v23) :=
  (dat1 (F := Ideal) V c).arrAt_eq_of_cover 7 _ (fun t _ => flushed_eq V c t) rows_cover

end Cert.KernelIdeal.NodeRegion

end
-- ==== Proof.HostChain.lean ====
/-
  The host operations of the kernel's program, read as values.

  Between the launch and the first pallas_call the program cuts the edge index array into its two rows of words (send,
  rec), looks up node features and positions at both, takes the distance of the two looked-up positions, and cuts the
  first weight table into its three runs of rows; between the two calls it scatter-adds the messages into nodes and
  cuts the second table. A buffer's contents at a stretch boundary are found by skipping the stretches that do not write
  it and reading the one that does. The four lookups fill out-of-range reads; on index words that are row numbers they
  are plain gathers (TakeFill.lean).
-/
import proofs.«403448_j36335423324795_1_alg».proof.Proof.Gen.KernelIdeal.Frame
import proofs.«403448_j36335423324795_1_alg».proof.Proof.TakeFill
import proofs.«403448_j36335423324795_1_alg».proof.Proof.Arrays
import proofs.«403448_j36335423324795_1_alg».proof.Proof.LibTypedRef
import Idealize.ShloMosaic.Lib.StableHlo.Run
import Idealize.ShloMosaic.Lib.Pipeline.Value
import Idealize.ShloMosaic.PureOps.Ideal

set_option maxRecDepth 16384

noncomputable section

namespace Cert.KernelIdeal.HostChain

open Cert.KernelIdeal Cert.KernelIdeal.Gen Egnn
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- Peels, from a goal about a buffer's contents after some stretches, every outer stretch that does not write it. -/
macro "peel_stretches" r:term : tactic =>
  `(tactic| (repeat (
      refine (StableHlo.after_of_forall_not_mem (b := Proc.devRef .tc $r) _ _ (List.forall_iff_forall_mem.mp ?_)).trans ?_
      · simp only [hostOps0, hostOps0_1, hostOps0_2, hostOps0_3, hostOps0_4, hostOps0_5, hostOps0_6, hostOps0_7, hostOps1,
          List.Forall, StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide))))

/-! ## The index words -/

/-- Row 0 of the edge index array as a vector of words: each edge's sending node. -/
abbrev sendW (c : Dev nD) : IVec S640000 32 :=
  shapeCast _ (extractStridedSlice S1x640000 ![0, 0] (m ((c : Thread nD τ).loc main_arg2)) slices_S2x640000_S1x640000_0_0) shapeCasts_S1x640000_S640000
/-- Row 1 of the edge index array as a vector of words: each edge's receiving node. -/
abbrev recW (c : Dev nD) : IVec S640000 32 :=
  shapeCast _ (extractStridedSlice S1x640000 ![1, 0] (m ((c : Thread nD τ).loc main_arg2)) slices_S2x640000_S1x640000_1_0) shapeCasts_S1x640000_S640000

theorem W1_v1 (c : Dev nD) : W1 (F := Ideal) m ρ c (Proc.devRef .tc main_v1) = sendW m c := by
  show StableHlo.after (hostOps0 (F := Ideal)) (W0 m ρ c) (Proc.devRef .tc main_v1) = _
  simp only [hostOps0]
  after_results
  rfl
theorem W1_v3 (c : Dev nD) : W1 (F := Ideal) m ρ c (Proc.devRef .tc main_v3) = recW m c := by
  show StableHlo.after (hostOps0 (F := Ideal)) (W0 m ρ c) (Proc.devRef .tc main_v3) = _
  simp only [hostOps0]
  after_results
  rfl

/-- Each word of either row is an entry of the edge index array, so when every entry of the array is a row number so
    is every word. -/
theorem sendW_isRow (c : Dev nD) (h : ∀ i : S2x640000.Idx, Take.IsRow (m ((c : Thread nD τ).loc main_arg2) i)) (e : S640000.Idx) :
    Take.IsRow (sendW m c e) := h _
theorem recW_isRow (c : Dev nD) (h : ∀ i : S2x640000.Idx, Take.IsRow (m ((c : Thread nD τ).loc main_arg2) i)) (e : S640000.Idx) :
    Take.IsRow (recW m c e) := h _

/-! ## The four lookups -/

section Lookups
variable {F : FTy → Type} [FloatOps F]

/-- The lookup of call 0, from any contents U the stretch starts from: rows of the table gathered at the wrapped
    index words, with a fill where the range test fails. -/
theorem take0_filled (U : Valuation τ sig (Elt F)) :
    StableHlo.after (hostOps0_1 (F := F)) U (Proc.devRef .tc main_v4)
      = select (broadcastInDim S640000x128 ![0] bcast_S640000_S640000x128_0
          (Take.inRows bcast_S640000_S640000x1_0 bcast_S_S640000x1 bcast_S1_S1x1_1 bcast_S1x1_S640000x1_0_1
            reducesTo_S640000x1_S640000_d1 h_S_ (Take.wrapped bcast_S_S640000 (U (Proc.devRef .tc main_v1)))))
          (Host.gather gather_S50000x128_S640000x1_S640000x128_1_0_n_n_0_1_1128 (U (Proc.devRef .tc main_arg0))
            (broadcastInDim S640000x1 ![0] bcast_S640000_S640000x1_0 (Take.wrapped bcast_S_S640000 (U (Proc.devRef .tc main_v1)))))
          (broadcastInDim S640000x128 ![] bcast_S_S640000x128 (constant (F := F) S_ .f32 0x7FC00000#32)) := by
  simp only [hostOps0_1]
  after_results_simp
  simp only [StableHlo.TRef.ofBuf_toBuf]
  simp only [StableHlo.TRef.ofBuf, StableHlo.TRef.toBuf, cast_eq]

/-- On index words that are row numbers the lookup of call 0 is the plain gather at the wrapped words. -/
theorem take0_rows (U : Valuation τ sig (Elt F)) (hs : ∀ e, Take.IsRow (U (Proc.devRef .tc main_v1) e)) :
    StableHlo.after (hostOps0_1 (F := F)) U (Proc.devRef .tc main_v4)
      = Host.gather gather_S50000x128_S640000x1_S640000x128_1_0_n_n_0_1_1128 (U (Proc.devRef .tc main_arg0))
          (broadcastInDim S640000x1 ![0] bcast_S640000_S640000x1_0 (Take.wrapped bcast_S_S640000 (U (Proc.devRef .tc main_v1)))) :=
  (take0_filled U).trans
    (Take.take_fill ![0] bcast_S640000_S640000x128_0 bcast_S_S640000 bcast_S640000_S640000x1_0 bcast_S_S640000x1 bcast_S1_S1x1_1
      bcast_S1x1_S640000x1_0_1 reducesTo_S640000x1_S640000_d1 h_S_ (U (Proc.devRef .tc main_v1)) hs
      (fun I => Host.gather gather_S50000x128_S640000x1_S640000x128_1_0_n_n_0_1_1128 (U (Proc.devRef .tc main_arg0)) I) _)

/-- The lookup of call 1, from any contents U the stretch starts from: rows of the table gathered at the wrapped
    index words, with a fill where the range test fails. -/
theorem take1_filled (U : Valuation τ sig (Elt F)) :
    StableHlo.after (hostOps0_2 (F := F)) U (Proc.devRef .tc main_v5)
      = select (broadcastInDim S640000x128 ![0] bcast_S640000_S640000x128_0
          (Take.inRows bcast_S640000_S640000x1_0 bcast_S_S640000x1 bcast_S1_S1x1_1 bcast_S1x1_S640000x1_0_1
            reducesTo_S640000x1_S640000_d1 h_S_ (Take.wrapped bcast_S_S640000 (U (Proc.devRef .tc main_v3)))))
          (Host.gather gather_S50000x128_S640000x1_S640000x128_1_0_n_n_0_1_1128 (U (Proc.devRef .tc main_arg0))
            (broadcastInDim S640000x1 ![0] bcast_S640000_S640000x1_0 (Take.wrapped bcast_S_S640000 (U (Proc.devRef .tc main_v3)))))
          (broadcastInDim S640000x128 ![] bcast_S_S640000x128 (constant (F := F) S_ .f32 0x7FC00000#32)) := by
  simp only [hostOps0_2]
  after_results_simp
  simp only [StableHlo.TRef.ofBuf_toBuf]
  simp only [StableHlo.TRef.ofBuf, StableHlo.TRef.toBuf, cast_eq]

/-- On index words that are row numbers the lookup of call 1 is the plain gather at the wrapped words. -/
theorem take1_rows (U : Valuation τ sig (Elt F)) (hs : ∀ e, Take.IsRow (U (Proc.devRef .tc main_v3) e)) :
    StableHlo.after (hostOps0_2 (F := F)) U (Proc.devRef .tc main_v5)
      = Host.gather gather_S50000x128_S640000x1_S640000x128_1_0_n_n_0_1_1128 (U (Proc.devRef .tc main_arg0))
          (broadcastInDim S640000x1 ![0] bcast_S640000_S640000x1_0 (Take.wrapped bcast_S_S640000 (U (Proc.devRef .tc main_v3)))) :=
  (take1_filled U).trans
    (Take.take_fill ![0] bcast_S640000_S640000x128_0 bcast_S_S640000 bcast_S640000_S640000x1_0 bcast_S_S640000x1 bcast_S1_S1x1_1
      bcast_S1x1_S640000x1_0_1 reducesTo_S640000x1_S640000_d1 h_S_ (U (Proc.devRef .tc main_v3)) hs
      (fun I => Host.gather gather_S50000x128_S640000x1_S640000x128_1_0_n_n_0_1_1128 (U (Proc.devRef .tc main_arg0)) I) _)

/-- The lookup of call 2, from any contents U the stretch starts from: rows of the table gathered at the wrapped
    index words, with a fill where the range test fails. -/
theorem take2_filled (U : Valuation τ sig (Elt F)) :
    StableHlo.after (hostOps0_3 (F := F)) U (Proc.devRef .tc main_v6)
      = select (broadcastInDim S640000x3 ![0] bcast_S640000_S640000x3_0
          (Take.inRows bcast_S640000_S640000x1_0 bcast_S_S640000x1 bcast_S1_S1x1_1 bcast_S1x1_S640000x1_0_1
            reducesTo_S640000x1_S640000_d1 h_S_ (Take.wrapped bcast_S_S640000 (U (Proc.devRef .tc main_v1)))))
          (Host.gather gather_S50000x3_S640000x1_S640000x3_1_0_n_n_0_1_13 (U (Proc.devRef .tc main_arg1))
            (broadcastInDim S640000x1 ![0] bcast_S640000_S640000x1_0 (Take.wrapped bcast_S_S640000 (U (Proc.devRef .tc main_v1)))))
          (broadcastInDim S640000x3 ![] bcast_S_S640000x3 (constant (F := F) S_ .f32 0x7FC00000#32)) := by
  simp only [hostOps0_3]
  after_results_simp
  simp only [StableHlo.TRef.ofBuf_toBuf]
  simp only [StableHlo.TRef.ofBuf, StableHlo.TRef.toBuf, cast_eq]

/-- On index words that are row numbers the lookup of call 2 is the plain gather at the wrapped words. -/
theorem take2_rows (U : Valuation τ sig (Elt F)) (hs : ∀ e, Take.IsRow (U (Proc.devRef .tc main_v1) e)) :
    StableHlo.after (hostOps0_3 (F := F)) U (Proc.devRef .tc main_v6)
      = Host.gather gather_S50000x3_S640000x1_S640000x3_1_0_n_n_0_1_13 (U (Proc.devRef .tc main_arg1))
          (broadcastInDim S640000x1 ![0] bcast_S640000_S640000x1_0 (Take.wrapped bcast_S_S640000 (U (Proc.devRef .tc main_v1)))) :=
  (take2_filled U).trans
    (Take.take_fill ![0] bcast_S640000_S640000x3_0 bcast_S_S640000 bcast_S640000_S640000x1_0 bcast_S_S640000x1 bcast_S1_S1x1_1
      bcast_S1x1_S640000x1_0_1 reducesTo_S640000x1_S640000_d1 h_S_ (U (Proc.devRef .tc main_v1)) hs
      (fun I => Host.gather gather_S50000x3_S640000x1_S640000x3_1_0_n_n_0_1_13 (U (Proc.devRef .tc main_arg1)) I) _)

/-- The lookup of call 3, from any contents U the stretch starts from: rows of the table gathered at the wrapped
    index words, with a fill where the range test fails. -/
theorem take3_filled (U : Valuation τ sig (Elt F)) :
    StableHlo.after (hostOps0_4 (F := F)) U (Proc.devRef .tc main_v7)
      = select (broadcastInDim S640000x3 ![0] bcast_S640000_S640000x3_0
          (Take.inRows bcast_S640000_S640000x1_0 bcast_S_S640000x1 bcast_S1_S1x1_1 bcast_S1x1_S640000x1_0_1
            reducesTo_S640000x1_S640000_d1 h_S_ (Take.wrapped bcast_S_S640000 (U (Proc.devRef .tc main_v3)))))
          (Host.gather gather_S50000x3_S640000x1_S640000x3_1_0_n_n_0_1_13 (U (Proc.devRef .tc main_arg1))
            (broadcastInDim S640000x1 ![0] bcast_S640000_S640000x1_0 (Take.wrapped bcast_S_S640000 (U (Proc.devRef .tc main_v3)))))
          (broadcastInDim S640000x3 ![] bcast_S_S640000x3 (constant (F := F) S_ .f32 0x7FC00000#32)) := by
  simp only [hostOps0_4]
  after_results_simp
  simp only [StableHlo.TRef.ofBuf_toBuf]
  simp only [StableHlo.TRef.ofBuf, StableHlo.TRef.toBuf, cast_eq]

/-- On index words that are row numbers the lookup of call 3 is the plain gather at the wrapped words. -/
theorem take3_rows (U : Valuation τ sig (Elt F)) (hs : ∀ e, Take.IsRow (U (Proc.devRef .tc main_v3) e)) :
    StableHlo.after (hostOps0_4 (F := F)) U (Proc.devRef .tc main_v7)
      = Host.gather gather_S50000x3_S640000x1_S640000x3_1_0_n_n_0_1_13 (U (Proc.devRef .tc main_arg1))
          (broadcastInDim S640000x1 ![0] bcast_S640000_S640000x1_0 (Take.wrapped bcast_S_S640000 (U (Proc.devRef .tc main_v3)))) :=
  (take3_filled U).trans
    (Take.take_fill ![0] bcast_S640000_S640000x3_0 bcast_S_S640000 bcast_S640000_S640000x1_0 bcast_S_S640000x1 bcast_S1_S1x1_1
      bcast_S1x1_S640000x1_0_1 reducesTo_S640000x1_S640000_d1 h_S_ (U (Proc.devRef .tc main_v3)) hs
      (fun I => Host.gather gather_S50000x3_S640000x1_S640000x3_1_0_n_n_0_1_13 (U (Proc.devRef .tc main_arg1)) I) _)

end Lookups

end Cert.KernelIdeal.HostChain

end
-- ==== Proof.Views.lean ====
/-
  Slices of the two first-layer tables and a bias vector laid out as one row, read by coordinates.

  A unit-stride slice of 128 rows of a table from row off on is the table's run of rows off .. off + 127; the slice of
  its last row is that row; a vector [128] broadcast along a new leading unit axis is the vector as one row [1, 128].
-/
import proofs.«403448_j36335423324795_1_alg».proof.Proof.Arrays
import Idealize.ShloMosaic.Lib.Pipeline.Value

noncomputable section

namespace Egnn

open Idealize.ShloMosaic Idealize.ShloMosaic.ValueIdx

theorem slice257_rows (off : Nat) (h : off + 128 ≤ 257) (w : STable257.Idx → EReal) (hs : STable257.Slices ![off, 0] SSquare) :
    extractStridedSlice SSquare ![off, 0] w hs = rowsOf257 off h w := by
  funext i
  refine extractStridedSlice_apply _ w hs i _ fun a => ?_
  match a with
  | ⟨0, _⟩ => rfl
  | ⟨1, _⟩ => exact (Nat.zero_add _).symm

theorem slice257_last (w : STable257.Idx → EReal) (hs : STable257.Slices ![256, 0] SRow) :
    extractStridedSlice SRow ![256, 0] w hs = lastRowOf257 w := by
  funext i
  refine extractStridedSlice_apply _ w hs i _ fun a => ?_
  match a with
  | ⟨0, _⟩ =>
    have h0 : (i (0 : Fin 2)).val = 0 := by have := (i (0 : Fin 2)).isLt; change (i (0 : Fin 2)).val < 1 at this; omega
    show 256 = 256 + (i (0 : Fin 2)).val
    omega
  | ⟨1, _⟩ => exact (Nat.zero_add _).symm

theorem slice256_rows (off : Nat) (h : off + 128 ≤ 256) (w : STable256.Idx → EReal) (hs : STable256.Slices ![off, 0] SSquare) :
    extractStridedSlice SSquare ![off, 0] w hs = rowsOf256 off h w := by
  funext i
  refine extractStridedSlice_apply _ w hs i _ fun a => ?_
  match a with
  | ⟨0, _⟩ => rfl
  | ⟨1, _⟩ => exact (Nat.zero_add _).symm

theorem bcast_asRow (b : SVec.Idx → EReal) (hb : SVec.BroadcastsInDim SRow ![1]) :
    broadcastInDim SRow ![1] hb b = asRow b := by
  funext i
  refine broadcastInDim_apply ![1] hb b i _ fun a => ?_
  match a with
  | ⟨0, _⟩ => rfl

end Egnn

end
-- ==== Proof.HostInputs.lean ====
/-
  What the two pallas_calls find in their operand arrays, as functions of the launch arrays.

  The first call's nine operands: the features gathered at the send and rec words, the distance column, the three runs
  of rows of the first table, the two biases as rows, the second-layer table. The second call's seven operands: the node
  features, the scatter-add of the first call's output at the rec words, the two runs of rows of the second table, its
  two biases as rows, its second-layer table. Gathers are plain because the index words are row numbers.
-/
import proofs.«403448_j36335423324795_1_alg».proof.Proof.HostChain
import proofs.«403448_j36335423324795_1_alg».proof.Proof.Views

set_option maxRecDepth 16384

noncomputable section

namespace Cert.KernelIdeal.HostInputs

open Cert.KernelIdeal Cert.KernelIdeal.Gen Cert.KernelIdeal.HostChain Egnn
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- Peels ONE outer stretch that does not write the buffer. -/
macro "peel_one" r:term : tactic =>
  `(tactic| (
      refine (StableHlo.after_of_forall_not_mem (b := Proc.devRef .tc $r) _ _ (List.forall_iff_forall_mem.mp ?_)).trans ?_
      · simp only [hostOps0, hostOps0_1, hostOps0_2, hostOps0_3, hostOps0_4, hostOps0_5, hostOps0_6, hostOps0_7, hostOps1,
          List.Forall, StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))

/-! ## Single stretches, from any contents U -/

theorem s5_v8 (U : Valuation τ sig (Elt Ideal)) :
    StableHlo.after (hostOps0_5 (F := Ideal)) U (Proc.devRef .tc main_v8)
      = (subf (F := Ideal) (s := S640000x3) (φ := .f32) (U (Proc.devRef .tc main_v6)) (U (Proc.devRef .tc main_v7)) : FVec Ideal S640000x3 .f32) := by
  simp only [hostOps0_5]
  after_results <;> rfl

theorem s6_v9 (U : Valuation τ sig (Elt Ideal)) :
    StableHlo.after (hostOps0_6 (F := Ideal)) U (Proc.devRef .tc main_v9)
      = Host.sqrt (Host.reduceAdd (mulf (U (Proc.devRef .tc main_v8)) (U (Proc.devRef .tc main_v8)))
          (constant (F := Ideal) S_ .f32 0x00000000#32) reducesTo_S640000x3_S640000_d1 h_S_) := by
  simp only [hostOps0_6]
  after_results_simp
  simp only [StableHlo.TRef.ofBuf_toBuf]
  rfl

theorem s7_v10 (U : Valuation τ sig (Elt Ideal)) :
    StableHlo.after (hostOps0_7 (F := Ideal)) U (Proc.devRef .tc main_v10)
      = broadcastInDim S640000x1 ![0] bcast_S640000_S640000x1_0 (U (Proc.devRef .tc main_v9)) := by
  simp only [hostOps0_7]; after_results <;> rfl
theorem s7_v11 (U : Valuation τ sig (Elt Ideal)) :
    StableHlo.after (hostOps0_7 (F := Ideal)) U (Proc.devRef .tc main_v11)
      = extractStridedSlice S128x128 ![0, 0] (U (Proc.devRef .tc main_arg3)) slices_S257x128_S128x128_0_0 := by
  simp only [hostOps0_7]; after_results <;> rfl
theorem s7_v12 (U : Valuation τ sig (Elt Ideal)) :
    StableHlo.after (hostOps0_7 (F := Ideal)) U (Proc.devRef .tc main_v12)
      = extractStridedSlice S128x128 ![128, 0] (U (Proc.devRef .tc main_arg3)) slices_S257x128_S128x128_128_0 := by
  simp only [hostOps0_7]; after_results <;> rfl
theorem s7_v13 (U : Valuation τ sig (Elt Ideal)) :
    StableHlo.after (hostOps0_7 (F := Ideal)) U (Proc.devRef .tc main_v13)
      = extractStridedSlice S1x128 ![256, 0] (U (Proc.devRef .tc main_arg3)) slices_S257x128_S1x128_256_0 := by
  simp only [hostOps0_7]; after_results <;> rfl
theorem s7_v14 (U : Valuation τ sig (Elt Ideal)) :
    StableHlo.after (hostOps0_7 (F := Ideal)) U (Proc.devRef .tc main_v14)
      = broadcastInDim S1x128 ![1] bcast_S128_S1x128_1 (U (Proc.devRef .tc main_arg4)) := by
  simp only [hostOps0_7]; after_results <;> rfl
theorem s7_v15 (U : Valuation τ sig (Elt Ideal)) :
    StableHlo.after (hostOps0_7 (F := Ideal)) U (Proc.devRef .tc main_v15)
      = broadcastInDim S1x128 ![1] bcast_S128_S1x128_1 (U (Proc.devRef .tc main_arg6)) := by
  simp only [hostOps0_7]; after_results <;> rfl

theorem s1_v19 (U : Valuation τ sig (Elt Ideal)) :
    StableHlo.after (hostOps1 (F := Ideal)) U (Proc.devRef .tc main_v19)
      = Host.scatterAdd scatter_S50000x128_S640000x1_S640000x128_1_0_0_1
          (broadcastInDim S50000x128 ![] bcast_S_S50000x128 (constant (F := Ideal) S_ .f32 0x00000000#32))
          (broadcastInDim S640000x1 ![0] bcast_S640000_S640000x1_0 (U (Proc.devRef .tc main_v3)))
          (U (Proc.devRef .tc main_v16)) := by
  simp only [hostOps1]; after_results <;> rfl
theorem s1_v20 (U : Valuation τ sig (Elt Ideal)) :
    StableHlo.after (hostOps1 (F := Ideal)) U (Proc.devRef .tc main_v20)
      = extractStridedSlice S128x128 ![0, 0] (U (Proc.devRef .tc main_arg7)) slices_S256x128_S128x128_0_0 := by
  simp only [hostOps1]; after_results <;> rfl
theorem s1_v21 (U : Valuation τ sig (Elt Ideal)) :
    StableHlo.after (hostOps1 (F := Ideal)) U (Proc.devRef .tc main_v21)
      = extractStridedSlice S128x128 ![128, 0] (U (Proc.devRef .tc main_arg7)) slices_S256x128_S128x128_128_0 := by
  simp only [hostOps1]; after_results <;> rfl
theorem s1_v22 (U : Valuation τ sig (Elt Ideal)) :
    StableHlo.after (hostOps1 (F := Ideal)) U (Proc.devRef .tc main_v22)
      = broadcastInDim S1x128 ![1] bcast_S128_S1x128_1 (U (Proc.devRef .tc main_arg8)) := by
  simp only [hostOps1]; after_results <;> rfl
theorem s1_v23 (U : Valuation τ sig (Elt Ideal)) :
    StableHlo.after (hostOps1 (F := Ideal)) U (Proc.devRef .tc main_v23)
      = broadcastInDim S1x128 ![1] bcast_S128_S1x128_1 (U (Proc.devRef .tc main_arg10)) := by
  simp only [hostOps1]; after_results <;> rfl

/-! ## The launch arrays and the index words at the boundaries where they are read -/

section Boundaries
variable (c : Dev nD)

theorem W1_arg0 : W1 (F := Ideal) m ρ c (Proc.devRef .tc main_arg0) = m ((c : Thread nD τ).loc main_arg0) := by peel_stretches main_arg0; rfl
theorem W2_arg0 : W2 (F := Ideal) m ρ c (Proc.devRef .tc main_arg0) = m ((c : Thread nD τ).loc main_arg0) := by peel_stretches main_arg0; rfl
theorem W3_arg1 : W3 (F := Ideal) m ρ c (Proc.devRef .tc main_arg1) = m ((c : Thread nD τ).loc main_arg1) := by peel_stretches main_arg1; rfl
theorem W4_arg1 : W4 (F := Ideal) m ρ c (Proc.devRef .tc main_arg1) = m ((c : Thread nD τ).loc main_arg1) := by peel_stretches main_arg1; rfl
theorem W7_arg3 : W7 (F := Ideal) m ρ c (Proc.devRef .tc main_arg3) = m ((c : Thread nD τ).loc main_arg3) := by peel_stretches main_arg3; rfl
theorem W7_arg4 : W7 (F := Ideal) m ρ c (Proc.devRef .tc main_arg4) = m ((c : Thread nD τ).loc main_arg4) := by peel_stretches main_arg4; rfl
theorem W7_arg6 : W7 (F := Ideal) m ρ c (Proc.devRef .tc main_arg6) = m ((c : Thread nD τ).loc main_arg6) := by peel_stretches main_arg6; rfl
theorem W8_arg0 : W8 (F := Ideal) m ρ c (Proc.devRef .tc main_arg0) = m ((c : Thread nD τ).loc main_arg0) := by peel_stretches main_arg0; rfl
theorem W8_arg5 : W8 (F := Ideal) m ρ c (Proc.devRef .tc main_arg5) = m ((c : Thread nD τ).loc main_arg5) := by peel_stretches main_arg5; rfl
theorem W8_arg7 : W8 (F := Ideal) m ρ c (Proc.devRef .tc main_arg7) = m ((c : Thread nD τ).loc main_arg7) := by peel_stretches main_arg7; rfl
theorem W8_arg8 : W8 (F := Ideal) m ρ c (Proc.devRef .tc main_arg8) = m ((c : Thread nD τ).loc main_arg8) := by peel_stretches main_arg8; rfl
theorem W8_arg9 : W8 (F := Ideal) m ρ c (Proc.devRef .tc main_arg9) = m ((c : Thread nD τ).loc main_arg9) := by peel_stretches main_arg9; rfl
theorem W8_arg10 : W8 (F := Ideal) m ρ c (Proc.devRef .tc main_arg10) = m ((c : Thread nD τ).loc main_arg10) := by peel_stretches main_arg10; rfl

theorem W2_v3 : W2 (F := Ideal) m ρ c (Proc.devRef .tc main_v3) = recW m c := by peel_stretches main_v3; exact W1_v3 m ρ c
theorem W3_v1 : W3 (F := Ideal) m ρ c (Proc.devRef .tc main_v1) = sendW m c := by peel_stretches main_v1; exact W1_v1 m ρ c
theorem W4_v3 : W4 (F := Ideal) m ρ c (Proc.devRef .tc main_v3) = recW m c := by peel_stretches main_v3; exact W1_v3 m ρ c
theorem W8_v3 : W8 (F := Ideal) m ρ c (Proc.devRef .tc main_v3) = recW m c := by peel_stretches main_v3; exact W1_v3 m ρ c

end Boundaries

/-! ## The gathered arrays -/

/-- Node features at each edge's sending node. -/
abbrev xSend (c : Dev nD) : S640000x128.Idx → EReal :=
  Host.gather gather_S50000x128_S640000x1_S640000x128_1_0_n_n_0_1_1128 (m ((c : Thread nD τ).loc main_arg0))
    (broadcastInDim S640000x1 ![0] bcast_S640000_S640000x1_0 (Take.wrapped bcast_S_S640000 (sendW m c)))
/-- Node features at each edge's receiving node. -/
abbrev xRec (c : Dev nD) : S640000x128.Idx → EReal :=
  Host.gather gather_S50000x128_S640000x1_S640000x128_1_0_n_n_0_1_1128 (m ((c : Thread nD τ).loc main_arg0))
    (broadcastInDim S640000x1 ![0] bcast_S640000_S640000x1_0 (Take.wrapped bcast_S_S640000 (recW m c)))
/-- Positions at each edge's sending node. -/
abbrev posSend (c : Dev nD) : S640000x3.Idx → EReal :=
  Host.gather gather_S50000x3_S640000x1_S640000x3_1_0_n_n_0_1_13 (m ((c : Thread nD τ).loc main_arg1))
    (broadcastInDim S640000x1 ![0] bcast_S640000_S640000x1_0 (Take.wrapped bcast_S_S640000 (sendW m c)))
/-- Positions at each edge's receiving node. -/
abbrev posRec (c : Dev nD) : S640000x3.Idx → EReal :=
  Host.gather gather_S50000x3_S640000x1_S640000x3_1_0_n_n_0_1_13 (m ((c : Thread nD τ).loc main_arg1))
    (broadcastInDim S640000x1 ![0] bcast_S640000_S640000x1_0 (Take.wrapped bcast_S_S640000 (recW m c)))
/-- The distance between each edge's two positions, as a column. -/
abbrev distCol (c : Dev nD) : S640000x1.Idx → EReal :=
  broadcastInDim S640000x1 ![0] bcast_S640000_S640000x1_0
    (Host.sqrt (Host.reduceAdd (mulf (subf (posSend m c) (posRec m c)) (subf (posSend m c) (posRec m c)))
      (constant (F := Ideal) S_ .f32 0x00000000#32) reducesTo_S640000x3_S640000_d1 h_S_))

section Inputs
variable (c : Dev nD) (hrows : ∀ i : S2x640000.Idx, Take.IsRow (m ((c : Thread nD τ).loc main_arg2) i))
include hrows

theorem W8_v4 : W8 (F := Ideal) m ρ c (Proc.devRef .tc main_v4) = xSend m c := by
  peel_stretches main_v4
  have hs : ∀ e, Take.IsRow (W1 (F := Ideal) m ρ c (Proc.devRef .tc main_v1) e) := fun e => by
    rw [W1_v1]; exact sendW_isRow m c hrows e
  refine (take0_rows (W1 (F := Ideal) m ρ c) hs).trans ?_
  rw [W1_v1, W1_arg0]

theorem W8_v5 : W8 (F := Ideal) m ρ c (Proc.devRef .tc main_v5) = xRec m c := by
  peel_stretches main_v5
  have hs : ∀ e, Take.IsRow (W2 (F := Ideal) m ρ c (Proc.devRef .tc main_v3) e) := fun e => by
    rw [W2_v3]; exact recW_isRow m c hrows e
  refine (take1_rows (W2 (F := Ideal) m ρ c) hs).trans ?_
  rw [W2_v3, W2_arg0]

theorem W4_v6 : W4 (F := Ideal) m ρ c (Proc.devRef .tc main_v6) = posSend m c := by
  have hs : ∀ e, Take.IsRow (W3 (F := Ideal) m ρ c (Proc.devRef .tc main_v1) e) := fun e => by
    rw [W3_v1]; exact sendW_isRow m c hrows e
  refine (take2_rows (W3 (F := Ideal) m ρ c) hs).trans ?_
  rw [W3_v1, W3_arg1]

theorem W5_v7 : W5 (F := Ideal) m ρ c (Proc.devRef .tc main_v7) = posRec m c := by
  have hs : ∀ e, Take.IsRow (W4 (F := Ideal) m ρ c (Proc.devRef .tc main_v3) e) := fun e => by
    rw [W4_v3]; exact recW_isRow m c hrows e
  refine (take3_rows (W4 (F := Ideal) m ρ c) hs).trans ?_
  rw [W4_v3, W4_arg1]

theorem W5_v6 : W5 (F := Ideal) m ρ c (Proc.devRef .tc main_v6) = posSend m c := by
  peel_stretches main_v6
  exact W4_v6 m ρ c hrows

theorem W6_v8 : W6 (F := Ideal) m ρ c (Proc.devRef .tc main_v8)
    = (subf (F := Ideal) (s := S640000x3) (φ := .f32) (posSend m c) (posRec m c) : FVec Ideal S640000x3 .f32) := by
  refine (s5_v8 (W5 (F := Ideal) m ρ c)).trans ?_
  rw [W5_v6 m ρ c hrows, W5_v7 m ρ c hrows]

theorem W7_v9 : W7 (F := Ideal) m ρ c (Proc.devRef .tc main_v9)
    = Host.sqrt (Host.reduceAdd (mulf (subf (posSend m c) (posRec m c)) (subf (posSend m c) (posRec m c)))
        (constant (F := Ideal) S_ .f32 0x00000000#32) reducesTo_S640000x3_S640000_d1 h_S_) := by
  refine (s6_v9 (W6 (F := Ideal) m ρ c)).trans ?_
  rw [W6_v8 m ρ c hrows]

theorem W8_v10 : W8 (F := Ideal) m ρ c (Proc.devRef .tc main_v10) = distCol m c := by
  refine (s7_v10 (W7 (F := Ideal) m ρ c)).trans ?_
  rw [W7_v9 m ρ c hrows]

end Inputs

section Weights
variable (c : Dev nD)

theorem W8_v11 : W8 (F := Ideal) m ρ c (Proc.devRef .tc main_v11) = rowsOf257 0 (by omega) (m ((c : Thread nD τ).loc main_arg3)) := by
  refine (s7_v11 (W7 (F := Ideal) m ρ c)).trans ?_
  rw [W7_arg3]; exact slice257_rows 0 (by omega) _ _
theorem W8_v12 : W8 (F := Ideal) m ρ c (Proc.devRef .tc main_v12) = rowsOf257 128 (by omega) (m ((c : Thread nD τ).loc main_arg3)) := by
  refine (s7_v12 (W7 (F := Ideal) m ρ c)).trans ?_
  rw [W7_arg3]; exact slice257_rows 128 (by omega) _ _
theorem W8_v13 : W8 (F := Ideal) m ρ c (Proc.devRef .tc main_v13) = lastRowOf257 (m ((c : Thread nD τ).loc main_arg3)) := by
  refine (s7_v13 (W7 (F := Ideal) m ρ c)).trans ?_
  rw [W7_arg3]; exact slice257_last _ _
theorem W8_v14 : W8 (F := Ideal) m ρ c (Proc.devRef .tc main_v14) = asRow (m ((c : Thread nD τ).loc main_arg4)) := by
  refine (s7_v14 (W7 (F := Ideal) m ρ c)).trans ?_
  rw [W7_arg4]; exact bcast_asRow _ _
theorem W8_v15 : W8 (F := Ideal) m ρ c (Proc.devRef .tc main_v15) = asRow (m ((c : Thread nD τ).loc main_arg6)) := by
  refine (s7_v15 (W7 (F := Ideal) m ρ c)).trans ?_
  rw [W7_arg6]; exact bcast_asRow _ _

/-! ## The second call's operands, over what the first call leaves -/

theorem W9_arg (r : Ref sig .tc) (hr : ∀ w, Pipeline.arrRef spec0 w ≠ r) :
    W9 (F := Ideal) m ρ c (Proc.devRef .tc r) = W8 m ρ c (Proc.devRef .tc r) := W9_of_ne m ρ c r hr

theorem W10_arg0 : W10 (F := Ideal) m ρ c (Proc.devRef .tc main_arg0) = m ((c : Thread nD τ).loc main_arg0) := by
  peel_one main_arg0
  exact (W9_of_ne m ρ c main_arg0 (by decide)).trans (W8_arg0 m ρ c)
theorem W10_arg9 : W10 (F := Ideal) m ρ c (Proc.devRef .tc main_arg9) = m ((c : Thread nD τ).loc main_arg9) := by
  peel_one main_arg9
  exact (W9_of_ne m ρ c main_arg9 (by decide)).trans (W8_arg9 m ρ c)
theorem W10_v19 : W10 (F := Ideal) m ρ c (Proc.devRef .tc main_v19)
    = Host.scatterAdd scatter_S50000x128_S640000x1_S640000x128_1_0_0_1
        (broadcastInDim S50000x128 ![] bcast_S_S50000x128 (constant (F := Ideal) S_ .f32 0x00000000#32))
        (broadcastInDim S640000x1 ![0] bcast_S640000_S640000x1_0 (recW m c))
        ((dat0 (F := Ideal) (V8 m ρ) c).arrAt 9 cfg0.N) := by
  refine (s1_v19 (W9 (F := Ideal) m ρ c)).trans ?_
  rw [(W9_of_ne m ρ c main_v3 (by decide)).trans (W8_v3 m ρ c)]
  exact congrArg _ (W9_arr m ρ c 9)
theorem W10_v20 : W10 (F := Ideal) m ρ c (Proc.devRef .tc main_v20) = rowsOf256 0 (by omega) (m ((c : Thread nD τ).loc main_arg7)) := by
  refine (s1_v20 (W9 (F := Ideal) m ρ c)).trans ?_
  rw [(W9_of_ne m ρ c main_arg7 (by decide)).trans (W8_arg7 m ρ c)]; exact slice256_rows 0 (by omega) _ _
theorem W10_v21 : W10 (F := Ideal) m ρ c (Proc.devRef .tc main_v21) = rowsOf256 128 (by omega) (m ((c : Thread nD τ).loc main_arg7)) := by
  refine (s1_v21 (W9 (F := Ideal) m ρ c)).trans ?_
  rw [(W9_of_ne m ρ c main_arg7 (by decide)).trans (W8_arg7 m ρ c)]; exact slice256_rows 128 (by omega) _ _
theorem W10_v22 : W10 (F := Ideal) m ρ c (Proc.devRef .tc main_v22) = asRow (m ((c : Thread nD τ).loc main_arg8)) := by
  refine (s1_v22 (W9 (F := Ideal) m ρ c)).trans ?_
  rw [(W9_of_ne m ρ c main_arg8 (by decide)).trans (W8_arg8 m ρ c)]; exact bcast_asRow _ _
theorem W10_v23 : W10 (F := Ideal) m ρ c (Proc.devRef .tc main_v23) = asRow (m ((c : Thread nD τ).loc main_arg10)) := by
  refine (s1_v23 (W9 (F := Ideal) m ρ c)).trans ?_
  rw [(W9_of_ne m ρ c main_arg10 (by decide)).trans (W8_arg10 m ρ c)]; exact bcast_asRow _ _

end Weights

end Cert.KernelIdeal.HostInputs

end
-- ==== Proof.RefStages.lean ====
/-
  The reference's two dense stages as the whole-array functions of Arrays.lean.

  The reference joins the gathered rows and the distance into a state of 257 entries and multiplies it by the whole
  first table; read index by index and with the sum over 257 split into its runs, its message array is the edge stage
  of the three parts against the table's three runs of rows. Likewise its update array is the node stage of the node
  features and the aggregated messages against the second table's two runs of rows.
-/
import proofs.«403448_j36335423324795_1_alg».proof.Proof.ReadP
import proofs.«403448_j36335423324795_1_alg».proof.Proof.Arrays
import Idealize.ShloMosaic.Lib.Pipeline.Value
import Idealize.ShloMosaic.Lib.ValueIdx
import Idealize.ShloMosaic.PureOps.Ideal.Laws

set_option maxRecDepth 16384

noncomputable section

namespace Cert.ReferenceIdeal.RefStages

open Cert.ReferenceIdeal Cert.ReferenceIdeal.Gen Cert.ReferenceIdeal.ReadP
open Idealize.ShloMosaic Idealize.ShloMosaic.TcCoe Idealize.ShloMosaic.ValueIdx Idealize.SL.Sem

/-! ## The literal one and the expansion of silu -/

/-- The word 0x3F800000 read as a binary32 number is one. -/
private theorem one_bits : Ideal.ofBits .f32 0x3F800000#32 = 1 := by
  simp [Ideal.ofBits, Ideal.ieee, -EReal.coe_mul]; norm_num

/-- The product of x with the quotient of one by one plus e to the minus x, spelt with the host's negation,
    exponential, sum and quotient, is silu x: the quotient is the logistic function by its definition. -/
private theorem silu_expand (x : Ideal .f32) :
    FloatOps.mulf x (FloatOps.hostDivf (FloatOps.ofBits .f32 0x3F800000#32)
      (FloatOps.addf (FloatOps.ofBits .f32 0x3F800000#32) (FloatOps.hostUnary .exp (FloatOps.hostNegf x))))
      = Egnn.silu x := by
  show x * Ideal.div (Ideal.ofBits .f32 0x3F800000#32) (Ideal.ofBits .f32 0x3F800000#32 + Ideal.exp (-x))
    = x * Ideal.logistic x
  rw [one_bits]; rfl

/-! ## The whole-array stages at an index given by its coordinates -/

/-- Entry (e, q) of the message array. -/
private theorem edgeOut_at (xs xr : Egnn.SEdges.Idx → EReal) (d : Egnn.SEdgeCol.Idx → EReal) (w1s w1r : Egnn.SSquare.Idx → EReal)
    (w1d b1 : Egnn.SRow.Idx → EReal) (w2 : Egnn.SSquare.Idx → EReal) (b2 : Egnn.SRow.Idx → EReal)
    (p : Fin 640000) (q : Fin 128) :
    Egnn.edgeOut xs xr d w1s w1r w1d b1 w2 b2 (ix2 p q)
      = Egnn.edgeRow (fun j => xs (ix2 p j)) (fun j => xr (ix2 p j)) (d (ix2 p (0 : Fin 1)))
          (fun j k => w1s (ix2 j k)) (fun j k => w1r (ix2 j k)) (fun k => w1d (ix2 (0 : Fin 1) k))
          (fun k => b1 (ix2 (0 : Fin 1) k)) (fun k q => w2 (ix2 k q)) (fun q => b2 (ix2 (0 : Fin 1) q)) q := rfl

/-- Entry (n, q) of the update array. -/
private theorem nodeOut_at (x a : Egnn.SNodes.Idx → EReal) (w1a w1b : Egnn.SSquare.Idx → EReal) (b1 : Egnn.SRow.Idx → EReal)
    (w2 : Egnn.SSquare.Idx → EReal) (b2 : Egnn.SRow.Idx → EReal) (n : Fin 50000) (q : Fin 128) :
    Egnn.nodeOut x a w1a w1b b1 w2 b2 (ix2 n q)
      = Egnn.nodeRow (fun j => x (ix2 n j)) (fun j => a (ix2 n j)) (fun j k => w1a (ix2 j k)) (fun j k => w1b (ix2 j k))
          (fun k => b1 (ix2 (0 : Fin 1) k)) (fun k q => w2 (ix2 k q)) (fun q => b2 (ix2 (0 : Fin 1) q)) q := rfl

/-! ## The runs of rows of the two first-layer tables, and a vector as one row -/

/-- Rows 0 to 127 of the table of 257 rows. -/
private theorem rows257_first (h : 0 + 128 ≤ 257) (a3 : (⟨S257x128, .f32⟩ : BufTy).Contents (Elt Ideal)) (j k : Fin 128) :
    Egnn.rowsOf257 0 h a3 (ix2 j k) = a3 (ix2 (⟨j.val, by omega⟩ : Fin 257) k) := by
  unfold Egnn.rowsOf257
  refine congrArg a3 (funext fun a => ?_)
  match a with
  | ⟨0, _⟩ => exact Fin.ext (Nat.zero_add _)
  | ⟨1, _⟩ => rfl

/-- Rows 128 to 255 of the table of 257 rows. -/
private theorem rows257_second (h : 128 + 128 ≤ 257) (a3 : (⟨S257x128, .f32⟩ : BufTy).Contents (Elt Ideal)) (j k : Fin 128) :
    Egnn.rowsOf257 128 h a3 (ix2 j k) = a3 (ix2 (⟨128 + j.val, by omega⟩ : Fin 257) k) := rfl

/-- Row 256 of the table of 257 rows. -/
private theorem rows257_last (a3 : (⟨S257x128, .f32⟩ : BufTy).Contents (Elt Ideal)) (k : Fin 128) :
    Egnn.lastRowOf257 a3 (ix2 (0 : Fin 1) k) = a3 (ix2 (⟨256, by omega⟩ : Fin 257) k) := rfl

/-- Rows 0 to 127 of the table of 256 rows. -/
private theorem rows256_first (h : 0 + 128 ≤ 256) (a7 : (⟨S256x128, .f32⟩ : BufTy).Contents (Elt Ideal)) (j k : Fin 128) :
    Egnn.rowsOf256 0 h a7 (ix2 j k) = a7 (ix2 (⟨j.val, by omega⟩ : Fin 256) k) := by
  unfold Egnn.rowsOf256
  refine congrArg a7 (funext fun a => ?_)
  match a with
  | ⟨0, _⟩ => exact Fin.ext (Nat.zero_add _)
  | ⟨1, _⟩ => rfl

/-- Rows 128 to 255 of the table of 256 rows. -/
private theorem rows256_second (h : 128 + 128 ≤ 256) (a7 : (⟨S256x128, .f32⟩ : BufTy).Contents (Elt Ideal)) (j k : Fin 128) :
    Egnn.rowsOf256 128 h a7 (ix2 j k) = a7 (ix2 (⟨128 + j.val, by omega⟩ : Fin 256) k) := rfl

/-- A vector read as the one row of a [1, 128] array. -/
private theorem as_row (b : (⟨S128, .f32⟩ : BufTy).Contents (Elt Ideal)) (k : Fin 128) : Egnn.asRow b (ix2 (0 : Fin 1) k) = b (ix1 k) := rfl

/-! ## The joined state of an edge, piece by piece -/

/-- Entries 0 to 127 of an edge's joined state are the sender's gathered features. -/
private theorem state_send (a0 : (⟨S50000x128, .f32⟩ : BufTy).Contents (Elt Ideal)) (a1 : (⟨S50000x3, .f32⟩ : BufTy).Contents (Elt Ideal)) (a2 : (⟨S2x640000, .i32⟩ : BufTy).Contents (Elt Ideal)) (p : Fin 640000) (j : Fin 128) :
    val_main_v35 (F := Ideal) a0 a1 a2 (ix2 p (⟨j.val, by omega⟩ : Fin 257)) = val_main_v26 (F := Ideal) a0 a2 (ix2 p j) := by
  unfold val_main_v35
  refine concatenate_apply_piece (1 : Fin S640000x257.rank)
    [⟨S640000x128, val_main_v26 (F := Ideal) a0 a2⟩, ⟨S640000x128, val_main_v33 (F := Ideal) a0 a2⟩, ⟨S640000x1, val_main_v34 (F := Ideal) a1 a2⟩]
    concatenates_S640000x128_S640000x128_S640000x1_S640000x257_d1 _ 0 (by show 0 < 3; omega) S640000x128
    (val_main_v26 (F := Ideal) a0 a2) rfl rfl 0 rfl (ix2 p j) ?_ ?_
  · intro b hb
    match b with
    | ⟨0, _⟩ => rfl
    | ⟨1, _⟩ => exact absurd rfl hb
  · show 0 + j.val = j.val
    omega

/-- Entries 128 to 255 are the receiver's gathered features. -/
private theorem state_rec (a0 : (⟨S50000x128, .f32⟩ : BufTy).Contents (Elt Ideal)) (a1 : (⟨S50000x3, .f32⟩ : BufTy).Contents (Elt Ideal)) (a2 : (⟨S2x640000, .i32⟩ : BufTy).Contents (Elt Ideal)) (p : Fin 640000) (j : Fin 128) :
    val_main_v35 (F := Ideal) a0 a1 a2 (ix2 p (⟨128 + j.val, by omega⟩ : Fin 257)) = val_main_v33 (F := Ideal) a0 a2 (ix2 p j) := by
  unfold val_main_v35
  refine concatenate_apply_piece (1 : Fin S640000x257.rank)
    [⟨S640000x128, val_main_v26 (F := Ideal) a0 a2⟩, ⟨S640000x128, val_main_v33 (F := Ideal) a0 a2⟩, ⟨S640000x1, val_main_v34 (F := Ideal) a1 a2⟩]
    concatenates_S640000x128_S640000x128_S640000x1_S640000x257_d1 _ 1 (by show 1 < 3; omega) S640000x128
    (val_main_v33 (F := Ideal) a0 a2) rfl rfl 128 rfl (ix2 p j) ?_ ?_
  · intro b hb
    match b with
    | ⟨0, _⟩ => rfl
    | ⟨1, _⟩ => exact absurd rfl hb
  · rfl

/-- Entry 256 is the distance. -/
private theorem state_dist (a0 : (⟨S50000x128, .f32⟩ : BufTy).Contents (Elt Ideal)) (a1 : (⟨S50000x3, .f32⟩ : BufTy).Contents (Elt Ideal)) (a2 : (⟨S2x640000, .i32⟩ : BufTy).Contents (Elt Ideal)) (p : Fin 640000) :
    val_main_v35 (F := Ideal) a0 a1 a2 (ix2 p (⟨256, by omega⟩ : Fin 257)) = val_main_v34 (F := Ideal) a1 a2 (ix2 p (0 : Fin 1)) := by
  unfold val_main_v35
  refine concatenate_apply_piece (1 : Fin S640000x257.rank)
    [⟨S640000x128, val_main_v26 (F := Ideal) a0 a2⟩, ⟨S640000x128, val_main_v33 (F := Ideal) a0 a2⟩, ⟨S640000x1, val_main_v34 (F := Ideal) a1 a2⟩]
    concatenates_S640000x128_S640000x128_S640000x1_S640000x257_d1 _ 2 (by show 2 < 3; omega) S640000x1
    (val_main_v34 (F := Ideal) a1 a2) rfl rfl 256 rfl (ix2 p (0 : Fin 1)) ?_ ?_
  · intro b hb
    match b with
    | ⟨0, _⟩ => rfl
    | ⟨1, _⟩ => exact absurd rfl hb
  · rfl

/-! ## The edge stage, layer by layer -/

/-- The left index of the first contraction of the edge stage. -/
private theorem lidx36 (p : Fin 640000) (k : Fin 128) (j : Fin 257) : lidx_main_v36 (ix2 p k) j = ix2 p j := by
  funext a
  match a with
  | ⟨0, _⟩ => rfl
  | ⟨1, _⟩ => rfl

/-- Its right index. -/
private theorem ridx36 (p : Fin 640000) (k : Fin 128) (j : Fin 257) : ridx_main_v36 (ix2 p k) j = ix2 j k := by
  funext a
  match a with
  | ⟨0, _⟩ => rfl
  | ⟨1, _⟩ => rfl

/-- The left index of the second contraction of the edge stage. -/
private theorem lidx41 (p : Fin 640000) (q : Fin 128) (k : Fin 128) : lidx_main_v41 (ix2 p q) k = ix2 p k := by
  funext a
  match a with
  | ⟨0, _⟩ => rfl
  | ⟨1, _⟩ => rfl

/-- Its right index. -/
private theorem ridx41 (p : Fin 640000) (q : Fin 128) (k : Fin 128) : ridx_main_v41 (ix2 p q) k = ix2 k q := by
  funext a
  match a with
  | ⟨0, _⟩ => rfl
  | ⟨1, _⟩ => rfl

/-- The first bias, spread over the edges, at (e, k) is its entry k. -/
private theorem bias38 (a4 : (⟨S128, .f32⟩ : BufTy).Contents (Elt Ideal)) (p : Fin 640000) (k : Fin 128) : val_main_v38 (F := Ideal) a4 (ix2 p k) = a4 (ix1 k) := by
  rw [val_main_v38_apply, val_main_v37_apply]
  refine congrArg a4 (funext fun a => ?_)
  match a with
  | ⟨0, _⟩ => rfl

/-- The second bias, spread over the edges, at (e, q) is its entry q. -/
private theorem bias43 (a6 : (⟨S128, .f32⟩ : BufTy).Contents (Elt Ideal)) (p : Fin 640000) (q : Fin 128) : val_main_v43 (F := Ideal) a6 (ix2 p q) = a6 (ix1 q) := by
  rw [val_main_v43_apply, val_main_v42_apply]
  refine congrArg a6 (funext fun a => ?_)
  match a with
  | ⟨0, _⟩ => rfl

/-- The hidden layer of the edge stage at (e, k): silu of the joined state against column k of the first table, plus
    the bias. -/
private theorem hidden_at (a0 : (⟨S50000x128, .f32⟩ : BufTy).Contents (Elt Ideal)) (a1 : (⟨S50000x3, .f32⟩ : BufTy).Contents (Elt Ideal)) (a2 : (⟨S2x640000, .i32⟩ : BufTy).Contents (Elt Ideal)) (a3 : (⟨S257x128, .f32⟩ : BufTy).Contents (Elt Ideal)) (a4 : (⟨S128, .f32⟩ : BufTy).Contents (Elt Ideal)) (p : Fin 640000) (k : Fin 128) :
    val_main_v40 (F := Ideal) a0 a1 a2 a3 a4 (ix2 p k)
      = Egnn.silu ((∑ j : Fin 257, val_main_v35 (F := Ideal) a0 a1 a2 (ix2 p j) * a3 (ix2 j k)) + a4 (ix1 k)) := by
  rw [val_main_v40_apply, val_main_call1_v5_apply, val_main_call1_v4_apply, val_main_call1_cst_0_apply,
    val_main_call1_v3_apply, val_main_call1_v2_apply, val_main_call1_cst_apply, val_main_call1_v1_apply,
    val_main_call1_v0_apply]
  refine (silu_expand _).trans (congrArg Egnn.silu ?_)
  rw [val_main_v39_apply, val_main_v36_apply, bias38]
  simp only [lidx36, ridx36]
  rfl

/-- The message at (e, q): silu of the hidden layer against column q of the second table, plus the bias. -/
private theorem message_at (a0 : (⟨S50000x128, .f32⟩ : BufTy).Contents (Elt Ideal)) (a1 : (⟨S50000x3, .f32⟩ : BufTy).Contents (Elt Ideal)) (a2 : (⟨S2x640000, .i32⟩ : BufTy).Contents (Elt Ideal)) (a3 : (⟨S257x128, .f32⟩ : BufTy).Contents (Elt Ideal)) (a4 : (⟨S128, .f32⟩ : BufTy).Contents (Elt Ideal)) (a5 : (⟨S128x128, .f32⟩ : BufTy).Contents (Elt Ideal)) (a6 : (⟨S128, .f32⟩ : BufTy).Contents (Elt Ideal)) (p : Fin 640000) (q : Fin 128) :
    val_main_v45 (F := Ideal) a0 a1 a2 a3 a4 a5 a6 (ix2 p q)
      = Egnn.silu ((∑ k : Fin 128, val_main_v40 (F := Ideal) a0 a1 a2 a3 a4 (ix2 p k) * a5 (ix2 k q)) + a6 (ix1 q)) := by
  rw [val_main_v45_apply, val_main_call2_v5_apply, val_main_call2_v4_apply, val_main_call2_cst_0_apply,
    val_main_call2_v3_apply, val_main_call2_v2_apply, val_main_call2_cst_apply, val_main_call2_v1_apply,
    val_main_call2_v0_apply]
  refine (silu_expand _).trans (congrArg Egnn.silu ?_)
  rw [val_main_v44_apply, val_main_v41_apply, bias43]
  simp only [lidx41, ridx41]
  rfl

/-- The reference's message array is the edge stage of its gathered rows, its distance column and the runs of rows of
    its first table. -/
theorem message_eq (a0 : (⟨S50000x128, .f32⟩ : BufTy).Contents (Elt Ideal)) (a1 : (⟨S50000x3, .f32⟩ : BufTy).Contents (Elt Ideal))
    (a2 : (⟨S2x640000, .i32⟩ : BufTy).Contents (Elt Ideal)) (a3 : (⟨S257x128, .f32⟩ : BufTy).Contents (Elt Ideal))
    (a4 : (⟨S128, .f32⟩ : BufTy).Contents (Elt Ideal)) (a5 : (⟨S128x128, .f32⟩ : BufTy).Contents (Elt Ideal))
    (a6 : (⟨S128, .f32⟩ : BufTy).Contents (Elt Ideal)) :
    val_main_v45 (F := Ideal) a0 a1 a2 a3 a4 a5 a6
      = Egnn.edgeOut (val_main_v26 (F := Ideal) a0 a2) (val_main_v33 (F := Ideal) a0 a2) (val_main_v34 (F := Ideal) a1 a2)
          (Egnn.rowsOf257 0 (by omega) a3) (Egnn.rowsOf257 128 (by omega) a3) (Egnn.lastRowOf257 a3) (Egnn.asRow a4) a5 (Egnn.asRow a6) := by
  funext i
  obtain ⟨p, q, rfl⟩ : ∃ (p : Fin 640000) (q : Fin 128), i = ix2 p q := ⟨i 0, i 1, eq_ix2 i⟩
  rw [message_at, edgeOut_at]
  unfold Egnn.edgeRow
  simp only [hidden_at, Egnn.sum_257, state_send, state_rec, state_dist, rows257_first, rows257_second, rows257_last, as_row]

/-! ## The joined row of a node, piece by piece -/

/-- Entries 0 to 127 of a node's joined row are its own features. -/
private theorem joined_own (a0 : (⟨S50000x128, .f32⟩ : BufTy).Contents (Elt Ideal)) (a1 : (⟨S50000x3, .f32⟩ : BufTy).Contents (Elt Ideal)) (a2 : (⟨S2x640000, .i32⟩ : BufTy).Contents (Elt Ideal)) (a3 : (⟨S257x128, .f32⟩ : BufTy).Contents (Elt Ideal)) (a4 : (⟨S128, .f32⟩ : BufTy).Contents (Elt Ideal)) (a5 : (⟨S128x128, .f32⟩ : BufTy).Contents (Elt Ideal)) (a6 : (⟨S128, .f32⟩ : BufTy).Contents (Elt Ideal)) (n : Fin 50000) (j : Fin 128) :
    val_main_v49 (F := Ideal) a0 a1 a2 a3 a4 a5 a6 (ix2 n (⟨j.val, by omega⟩ : Fin 256)) = a0 (ix2 n j) := by
  unfold val_main_v49
  refine concatenate_pair_apply_left (1 : Fin S50000x256.rank) a0 (val_main_v48 (F := Ideal) a0 a1 a2 a3 a4 a5 a6)
    concatenates_S50000x128_S50000x128_S50000x256_d1 _ rfl (ix2 n j) ?_
  intro b
  match b with
  | ⟨0, _⟩ => rfl
  | ⟨1, _⟩ => rfl

/-- Entries 128 to 255 are its aggregated messages. -/
private theorem joined_aggr (a0 : (⟨S50000x128, .f32⟩ : BufTy).Contents (Elt Ideal)) (a1 : (⟨S50000x3, .f32⟩ : BufTy).Contents (Elt Ideal)) (a2 : (⟨S2x640000, .i32⟩ : BufTy).Contents (Elt Ideal)) (a3 : (⟨S257x128, .f32⟩ : BufTy).Contents (Elt Ideal)) (a4 : (⟨S128, .f32⟩ : BufTy).Contents (Elt Ideal)) (a5 : (⟨S128x128, .f32⟩ : BufTy).Contents (Elt Ideal)) (a6 : (⟨S128, .f32⟩ : BufTy).Contents (Elt Ideal)) (n : Fin 50000) (j : Fin 128) :
    val_main_v49 (F := Ideal) a0 a1 a2 a3 a4 a5 a6 (ix2 n (⟨128 + j.val, by omega⟩ : Fin 256))
      = val_main_v48 (F := Ideal) a0 a1 a2 a3 a4 a5 a6 (ix2 n j) := by
  unfold val_main_v49
  refine concatenate_pair_apply_right (1 : Fin S50000x256.rank) a0 (val_main_v48 (F := Ideal) a0 a1 a2 a3 a4 a5 a6)
    concatenates_S50000x128_S50000x128_S50000x256_d1 _ rfl rfl (ix2 n j) ?_ ?_
  · intro b hb
    match b with
    | ⟨0, _⟩ => rfl
    | ⟨1, _⟩ => exact absurd rfl hb
  · show j.val + 128 = 128 + j.val
    omega

/-! ## The node stage, layer by layer -/

/-- The left index of the first contraction of the node stage. -/
private theorem lidx50 (n : Fin 50000) (k : Fin 128) (j : Fin 256) : lidx_main_v50 (ix2 n k) j = ix2 n j := by
  funext a
  match a with
  | ⟨0, _⟩ => rfl
  | ⟨1, _⟩ => rfl

/-- Its right index. -/
private theorem ridx50 (n : Fin 50000) (k : Fin 128) (j : Fin 256) : ridx_main_v50 (ix2 n k) j = ix2 j k := by
  funext a
  match a with
  | ⟨0, _⟩ => rfl
  | ⟨1, _⟩ => rfl

/-- The left index of the second contraction of the node stage. -/
private theorem lidx55 (n : Fin 50000) (q : Fin 128) (k : Fin 128) : lidx_main_v55 (ix2 n q) k = ix2 n k := by
  funext a
  match a with
  | ⟨0, _⟩ => rfl
  | ⟨1, _⟩ => rfl

/-- Its right index. -/
private theorem ridx55 (n : Fin 50000) (q : Fin 128) (k : Fin 128) : ridx_main_v55 (ix2 n q) k = ix2 k q := by
  funext a
  match a with
  | ⟨0, _⟩ => rfl
  | ⟨1, _⟩ => rfl

/-- The first bias, spread over the nodes, at (n, k) is its entry k. -/
private theorem bias52 (a8 : (⟨S128, .f32⟩ : BufTy).Contents (Elt Ideal)) (n : Fin 50000) (k : Fin 128) : val_main_v52 (F := Ideal) a8 (ix2 n k) = a8 (ix1 k) := by
  rw [val_main_v52_apply, val_main_v51_apply]
  refine congrArg a8 (funext fun a => ?_)
  match a with
  | ⟨0, _⟩ => rfl

/-- The second bias, spread over the nodes, at (n, q) is its entry q. -/
private theorem bias57 (a10 : (⟨S128, .f32⟩ : BufTy).Contents (Elt Ideal)) (n : Fin 50000) (q : Fin 128) : val_main_v57 (F := Ideal) a10 (ix2 n q) = a10 (ix1 q) := by
  rw [val_main_v57_apply, val_main_v56_apply]
  refine congrArg a10 (funext fun a => ?_)
  match a with
  | ⟨0, _⟩ => rfl

/-- The hidden layer of the node stage at (n, k): silu of the joined row against column k of the first table, plus
    the bias. -/
private theorem node_hidden_at (a0 : (⟨S50000x128, .f32⟩ : BufTy).Contents (Elt Ideal)) (a1 : (⟨S50000x3, .f32⟩ : BufTy).Contents (Elt Ideal)) (a2 : (⟨S2x640000, .i32⟩ : BufTy).Contents (Elt Ideal)) (a3 : (⟨S257x128, .f32⟩ : BufTy).Contents (Elt Ideal)) (a4 : (⟨S128, .f32⟩ : BufTy).Contents (Elt Ideal)) (a5 : (⟨S128x128, .f32⟩ : BufTy).Contents (Elt Ideal)) (a6 : (⟨S128, .f32⟩ : BufTy).Contents (Elt Ideal)) (a7 : (⟨S256x128, .f32⟩ : BufTy).Contents (Elt Ideal)) (a8 : (⟨S128, .f32⟩ : BufTy).Contents (Elt Ideal)) (n : Fin 50000) (k : Fin 128) :
    val_main_v54 (F := Ideal) a0 a1 a2 a3 a4 a5 a6 a7 a8 (ix2 n k)
      = Egnn.silu ((∑ j : Fin 256, val_main_v49 (F := Ideal) a0 a1 a2 a3 a4 a5 a6 (ix2 n j) * a7 (ix2 j k)) + a8 (ix1 k)) := by
  rw [val_main_v54_apply, val_main_call3_v5_apply, val_main_call3_v4_apply, val_main_call3_cst_0_apply,
    val_main_call3_v3_apply, val_main_call3_v2_apply, val_main_call3_cst_apply, val_main_call3_v1_apply,
    val_main_call3_v0_apply]
  refine (silu_expand _).trans (congrArg Egnn.silu ?_)
  rw [val_main_v53_apply, val_main_v50_apply, bias52]
  simp only [lidx50, ridx50]
  rfl

/-- The update at (n, q): the hidden layer against column q of the second table, plus the bias. -/
private theorem update_at (a0 : (⟨S50000x128, .f32⟩ : BufTy).Contents (Elt Ideal)) (a1 : (⟨S50000x3, .f32⟩ : BufTy).Contents (Elt Ideal)) (a2 : (⟨S2x640000, .i32⟩ : BufTy).Contents (Elt Ideal)) (a3 : (⟨S257x128, .f32⟩ : BufTy).Contents (Elt Ideal)) (a4 : (⟨S128, .f32⟩ : BufTy).Contents (Elt Ideal)) (a5 : (⟨S128x128, .f32⟩ : BufTy).Contents (Elt Ideal)) (a6 : (⟨S128, .f32⟩ : BufTy).Contents (Elt Ideal)) (a7 : (⟨S256x128, .f32⟩ : BufTy).Contents (Elt Ideal)) (a8 : (⟨S128, .f32⟩ : BufTy).Contents (Elt Ideal)) (a9 : (⟨S128x128, .f32⟩ : BufTy).Contents (Elt Ideal)) (a10 : (⟨S128, .f32⟩ : BufTy).Contents (Elt Ideal)) (n : Fin 50000) (q : Fin 128) :
    val_main_v58 (F := Ideal) a0 a1 a2 a3 a4 a5 a6 a7 a8 a9 a10 (ix2 n q)
      = (∑ k : Fin 128, val_main_v54 (F := Ideal) a0 a1 a2 a3 a4 a5 a6 a7 a8 (ix2 n k) * a9 (ix2 k q)) + a10 (ix1 q) := by
  rw [val_main_v58_apply, val_main_v55_apply, bias57]
  simp only [lidx55, ridx55]
  rfl

/-- The reference's update array is the node stage of the node features, its aggregated messages and the runs of rows
    of its second table. -/
theorem update_eq (a0 : (⟨S50000x128, .f32⟩ : BufTy).Contents (Elt Ideal)) (a1 : (⟨S50000x3, .f32⟩ : BufTy).Contents (Elt Ideal))
    (a2 : (⟨S2x640000, .i32⟩ : BufTy).Contents (Elt Ideal)) (a3 : (⟨S257x128, .f32⟩ : BufTy).Contents (Elt Ideal))
    (a4 : (⟨S128, .f32⟩ : BufTy).Contents (Elt Ideal)) (a5 : (⟨S128x128, .f32⟩ : BufTy).Contents (Elt Ideal))
    (a6 : (⟨S128, .f32⟩ : BufTy).Contents (Elt Ideal)) (a7 : (⟨S256x128, .f32⟩ : BufTy).Contents (Elt Ideal))
    (a8 : (⟨S128, .f32⟩ : BufTy).Contents (Elt Ideal)) (a9 : (⟨S128x128, .f32⟩ : BufTy).Contents (Elt Ideal))
    (a10 : (⟨S128, .f32⟩ : BufTy).Contents (Elt Ideal)) :
    val_main_v58 (F := Ideal) a0 a1 a2 a3 a4 a5 a6 a7 a8 a9 a10
      = Egnn.nodeOut a0 (val_main_v48 (F := Ideal) a0 a1 a2 a3 a4 a5 a6)
          (Egnn.rowsOf256 0 (by omega) a7) (Egnn.rowsOf256 128 (by omega) a7) (Egnn.asRow a8) a9 (Egnn.asRow a10) := by
  funext i
  obtain ⟨n, q, rfl⟩ : ∃ (n : Fin 50000) (q : Fin 128), i = ix2 n q := ⟨i 0, i 1, eq_ix2 i⟩
  rw [update_at, nodeOut_at]
  unfold Egnn.nodeRow
  simp only [node_hidden_at, Egnn.sum_256, joined_own, joined_aggr, rows256_first, rows256_second, as_row]

end Cert.ReferenceIdeal.RefStages

end
-- ==== Proof.KernelValue.lean ====
/-
  The kernel's result array is the reference's result function of the launch arrays.

  The run leaves in the result array what the second pallas_call wrote: the node stage (NodeRegion.lean) of the arrays
  that call found, which are the node features, the scatter-add at the rec words of the first call's output, and the
  second table's rows and biases (HostInputs.lean). The first call's output is the edge stage (EdgeRegion.lean) of the
  gathered rows, the distance column and the first table's rows and biases. The reference's result is the same two stages
  of the same arrays (RefStages.lean), its gathers, its distance and its scatter-add being the same operations at the
  same words.
-/
import proofs.«403448_j36335423324795_1_alg».proof.Proof.RunValue
import proofs.«403448_j36335423324795_1_alg».proof.Proof.EdgeRegion
import proofs.«403448_j36335423324795_1_alg».proof.Proof.NodeRegion
import proofs.«403448_j36335423324795_1_alg».proof.Proof.HostInputs
import proofs.«403448_j36335423324795_1_alg».proof.Proof.RefStages

set_option maxRecDepth 65536

noncomputable section

namespace Egnn

/-- Equal operands give equal message arrays. -/
theorem edgeOut_congr {xs xs' xr xr' : SEdges.Idx → EReal} {d d' : SEdgeCol.Idx → EReal} {w1s w1s' w1r w1r' : SSquare.Idx → EReal}
    {w1d w1d' b1 b1' : SRow.Idx → EReal} {w2 w2' : SSquare.Idx → EReal} {b2 b2' : SRow.Idx → EReal}
    (h0 : xs = xs') (h1 : xr = xr') (h2 : d = d') (h3 : w1s = w1s') (h4 : w1r = w1r') (h5 : w1d = w1d') (h6 : b1 = b1')
    (h7 : w2 = w2') (h8 : b2 = b2') :
    edgeOut xs xr d w1s w1r w1d b1 w2 b2 = edgeOut xs' xr' d' w1s' w1r' w1d' b1' w2' b2' := by
  subst h0 h1 h2 h3 h4 h5 h6 h7 h8; rfl

/-- Equal operands give equal update arrays. -/
theorem nodeOut_congr {x x' a a' : SNodes.Idx → EReal} {w1a w1a' w1b w1b' : SSquare.Idx → EReal} {b1 b1' : SRow.Idx → EReal}
    {w2 w2' : SSquare.Idx → EReal} {b2 b2' : SRow.Idx → EReal}
    (h0 : x = x') (h1 : a = a') (h2 : w1a = w1a') (h3 : w1b = w1b') (h4 : b1 = b1') (h5 : w2 = w2') (h6 : b2 = b2') :
    nodeOut x a w1a w1b b1 w2 b2 = nodeOut x' a' w1a' w1b' b1' w2' b2' := by
  subst h0 h1 h2 h3 h4 h5 h6; rfl

end Egnn

namespace Cert.KernelIdeal.KernelValue

open Cert.KernelIdeal Cert.KernelIdeal.Gen Cert.KernelIdeal.HostChain Cert.KernelIdeal.HostInputs Egnn
open Idealize.ShloMosaic Idealize.ShloMosaic.TcCoe Idealize.ShloMosaic.ValueIdx Idealize.SL.Sem Idealize.ShloMosaic.StableHlo

/-! ## The two programs' host operations are the same operations

Each identity below has the kernel's spelling of a host value on the left and the reference's stage function on the right;
both unfold to one term. -/

section SameOperations
variable {F : FTy → Type} [FloatOps F]

theorem gather_send_features (a0 : FVec F S50000x128 .f32) (a2 : IVec S2x640000 32) :
    Host.gather gather_S50000x128_S640000x1_S640000x128_1_0_n_n_0_1_1128 a0
        (broadcastInDim S640000x1 ![0] bcast_S640000_S640000x1_0 (Take.wrapped bcast_S_S640000
          (shapeCast _ (extractStridedSlice S1x640000 ![0, 0] a2 slices_S2x640000_S1x640000_0_0) shapeCasts_S1x640000_S640000)))
      = Cert.ReferenceIdeal.ReadP.val_main_v26 (F := F) a0 a2 := rfl

theorem gather_rec_features (a0 : FVec F S50000x128 .f32) (a2 : IVec S2x640000 32) :
    Host.gather gather_S50000x128_S640000x1_S640000x128_1_0_n_n_0_1_1128 a0
        (broadcastInDim S640000x1 ![0] bcast_S640000_S640000x1_0 (Take.wrapped bcast_S_S640000
          (shapeCast _ (extractStridedSlice S1x640000 ![1, 0] a2 slices_S2x640000_S1x640000_1_0) shapeCasts_S1x640000_S640000)))
      = Cert.ReferenceIdeal.ReadP.val_main_v33 (F := F) a0 a2 := rfl

theorem gather_send_positions (a1 : FVec F S50000x3 .f32) (a2 : IVec S2x640000 32) :
    Host.gather gather_S50000x3_S640000x1_S640000x3_1_0_n_n_0_1_13 a1
        (broadcastInDim S640000x1 ![0] bcast_S640000_S640000x1_0 (Take.wrapped bcast_S_S640000 (shapeCast _ (extractStridedSlice S1x640000 ![0, 0] a2 slices_S2x640000_S1x640000_0_0) shapeCasts_S1x640000_S640000)))
      = Cert.ReferenceIdeal.ReadP.val_main_v10 (F := F) a1 a2 := rfl

theorem gather_rec_positions (a1 : FVec F S50000x3 .f32) (a2 : IVec S2x640000 32) :
    Host.gather gather_S50000x3_S640000x1_S640000x3_1_0_n_n_0_1_13 a1
        (broadcastInDim S640000x1 ![0] bcast_S640000_S640000x1_0 (Take.wrapped bcast_S_S640000 (shapeCast _ (extractStridedSlice S1x640000 ![1, 0] a2 slices_S2x640000_S1x640000_1_0) shapeCasts_S1x640000_S640000)))
      = Cert.ReferenceIdeal.ReadP.val_main_v17 (F := F) a1 a2 := rfl

/-- The distance column of two position arrays that are the reference's gathered positions is the reference's. -/
theorem distance_column (a1 : FVec F S50000x3 .f32) (a2 : IVec S2x640000 32) (ps pr : FVec F S640000x3 .f32)
    (hps : ps = Cert.ReferenceIdeal.ReadP.val_main_v10 (F := F) a1 a2) (hpr : pr = Cert.ReferenceIdeal.ReadP.val_main_v17 (F := F) a1 a2) :
    broadcastInDim S640000x1 ![0] bcast_S640000_S640000x1_0
        (Host.sqrt (Host.reduceAdd (mulf (subf ps pr) (subf ps pr))
          (constant (F := F) S_ .f32 0x00000000#32) reducesTo_S640000x3_S640000_d1 h_S_))
      = Cert.ReferenceIdeal.ReadP.val_main_v34 (F := F) a1 a2 := by
  subst hps hpr; rfl

theorem scatter_messages (a2 : IVec S2x640000 32) (msg : FVec F S640000x128 .f32) :
    Host.scatterAdd scatter_S50000x128_S640000x1_S640000x128_1_0_0_1
        (broadcastInDim S50000x128 ![] bcast_S_S50000x128 (constant (F := F) S_ .f32 0x00000000#32))
        (broadcastInDim S640000x1 ![0] bcast_S640000_S640000x1_0
          (shapeCast _ (extractStridedSlice S1x640000 ![1, 0] a2 slices_S2x640000_S1x640000_1_0) shapeCasts_S1x640000_S640000))
        msg
      = Host.scatterAdd Cert.ReferenceIdeal.scatter_S50000x128_S640000x1_S640000x128_1_0_0_1
          (Cert.ReferenceIdeal.ReadP.val_main_v46 (F := F)) (Cert.ReferenceIdeal.ReadP.val_main_v47 (F := F) a2) msg := rfl

end SameOperations

variable (m : (ℓ : Loc nD τ sig) → Buf (Elt Ideal) ℓ) (ρ : Dev nD → PrngReg)

/-- The first call's output array, over the launch arrays, is the reference's message array. -/
theorem message_value (c : Dev nD) (hrows : ∀ i : S2x640000.Idx, Take.IsRow (m ((c : Thread nD τ).loc main_arg2) i)) :
    (dat0 (F := Ideal) (V8 m ρ) c).arrAt 9 cfg0.N
      = Cert.ReferenceIdeal.ReadP.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [Cert.ReferenceIdeal.RefStages.message_eq]
  refine (EdgeRegion.edge_final (V8 m ρ) c).trans ?_
  exact edgeOut_congr ((W8_v4 m ρ c hrows).trans (gather_send_features (F := Ideal) (m ((c : Thread nD τ).loc main_arg0)) (m ((c : Thread nD τ).loc main_arg2)))) ((W8_v5 m ρ c hrows).trans (gather_rec_features (F := Ideal) (m ((c : Thread nD τ).loc main_arg0)) (m ((c : Thread nD τ).loc main_arg2))))
    ((W8_v10 m ρ c hrows).trans (distance_column (F := Ideal) (m ((c : Thread nD τ).loc main_arg1)) (m ((c : Thread nD τ).loc main_arg2)) (posSend m c) (posRec m c)
      (gather_send_positions (F := Ideal) (m ((c : Thread nD τ).loc main_arg1)) (m ((c : Thread nD τ).loc main_arg2))) (gather_rec_positions (F := Ideal) (m ((c : Thread nD τ).loc main_arg1)) (m ((c : Thread nD τ).loc main_arg2))))) (W8_v11 m ρ c) (W8_v12 m ρ c) (W8_v13 m ρ c) (W8_v14 m ρ c)
    (W8_arg5 m ρ c) (W8_v15 m ρ c)

/-- The aggregated messages the second call finds are the reference's aggregate. -/
theorem aggregate_value (c : Dev nD) (hrows : ∀ i : S2x640000.Idx, Take.IsRow (m ((c : Thread nD τ).loc main_arg2) i)) :
    W10 (F := Ideal) m ρ c (Proc.devRef .tc main_v19)
      = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W10_v19 m ρ c).trans ((congrArg _ (message_value m ρ c hrows)).trans (scatter_messages (F := Ideal) (m ((c : Thread nD τ).loc main_arg2)) _))

/-- The result array after the run is the reference's result function of the launch arrays. -/
theorem result_value (c : Dev nD) (hrows : ∀ i : S2x640000.Idx, Take.IsRow (m ((c : Thread nD τ).loc main_arg2) i)) :
    W11 (F := Ideal) m ρ c (Proc.devRef .tc main_v24)
      = Cert.ReferenceIdeal.ReadP.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [Cert.ReferenceIdeal.RefStages.update_eq]
  refine (W11_arr m ρ c 7).trans ?_
  refine (NodeRegion.node_final (V10 m ρ) c).trans ?_
  exact nodeOut_congr (W10_arg0 m ρ c) (aggregate_value m ρ c hrows) (W10_v20 m ρ c) (W10_v21 m ρ c) (W10_v22 m ρ c)
    (W10_arg9 m ρ c) (W10_v23 m ρ c)

end Cert.KernelIdeal.KernelValue

end
-- ==== Proof.lean ====
/-
  One layer of an equivariant graph network: gather node features and positions at each edge's two ends, a two-layer
  perceptron with silu on every edge (the message), a sum of the messages into the receiving nodes, and a two-layer
  perceptron on every node (the update).

  The kernel computes the first layer of each perceptron as partial products, one per part of the joined input (sending
  features, receiving features, distance; node features, aggregated messages), in two pallas_calls over row blocks; the
  reference joins the parts and multiplies by the whole table. Over the extended reals the two agree because a sum over
  the joined index range is the sum over its runs (associativity and commutativity of addition only), silu is one function
  on both sides, and the scatter-add is the same operation at the same words. The kernel's gathers fill out-of-range reads
  and the reference's do not; under the precondition every edge index word is a row number 0 <= w < 50000, where the two
  kinds of gather coincide.

  The kernel's two frames are the generated ones; the reference's is its run, read stretch by stretch, with the result dropped; the idealization
  rewrote nothing, so preserves is trivial.
-/
import proofs.«403448_j36335423324795_1_alg».proof.Defs
import proofs.«403448_j36335423324795_1_alg».proof.Proof.Gen.Kernel
import proofs.«403448_j36335423324795_1_alg».proof.Proof.Gen.Kernel.Skeleton
import proofs.«403448_j36335423324795_1_alg».proof.Proof.Gen.Kernel.Launch
import proofs.«403448_j36335423324795_1_alg».proof.Proof.Gen.Kernel.Points
import proofs.«403448_j36335423324795_1_alg».proof.Proof.Gen.Kernel.Frame
import proofs.«403448_j36335423324795_1_alg».proof.Proof.Gen.KernelIdeal
import proofs.«403448_j36335423324795_1_alg».proof.Proof.Gen.KernelIdeal.Skeleton
import proofs.«403448_j36335423324795_1_alg».proof.Proof.Gen.KernelIdeal.Launch
import proofs.«403448_j36335423324795_1_alg».proof.Proof.Gen.KernelIdeal.Points
import proofs.«403448_j36335423324795_1_alg».proof.Proof.Gen.KernelIdeal.Frame
import proofs.«403448_j36335423324795_1_alg».proof.Proof.Gen.ReferenceIdeal
import proofs.«403448_j36335423324795_1_alg».proof.Proof.Gen.Pre_finite_inputs
import proofs.«403448_j36335423324795_1_alg».proof.Proof.PreRange
import proofs.«403448_j36335423324795_1_alg».proof.Proof.RefRun
import proofs.«403448_j36335423324795_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- Both idealized programs end with the reference's result function of the launch arrays in their result array. -/
theorem algebraic : Cert.algebraic_KernelIdeal_ReferenceIdeal := by
  intro m ρ m' ρ' hpre hagree
  have hrows : ∀ (c : Dev Cert.KernelIdeal.nD) (i : Cert.KernelIdeal.S2x640000.Idx),
      Egnn.Take.IsRow (m ((c.tc : Thread Cert.KernelIdeal.nD Cert.KernelIdeal.τ).loc Cert.KernelIdeal.main_arg2) i) :=
    fun c i => Egnn.PreRange.rows_of_pre _ _ _ _ _ _ _ _ _ _ _ (hpre c) i
  refine ⟨fun c => Cert.ReferenceIdeal.ReadP.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.KernelValue.result_value m ρ c (hrows c)), (h c).2⟩)
      (Cert.KernelIdeal.RunValue.run_value m ρ)
  · refine (θ_run Cert.ReferenceIdeal.defs _ _).mono (fun r h c => ⟨?_, (h c).2⟩)
      (Cert.ReferenceIdeal.RefRun.run (F := Ideal) m' ρ')
    rw [(h c).1, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
